-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_total" .f32 0x38AAAAAB#32 ((1 / 12288 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S12288x768 : Shape := ⟨2, ![12288, 768]⟩
abbrev S_ : Shape := ⟨0, ![]⟩

class Facts : Prop where
  bcast_S_S12288x768 : S_.BroadcastsInDim S12288x768 (![] : Fin 0 → Fin S12288x768.rank)
  reducesTo_S12288x768_S_d0_1 : S12288x768.ReducesTo [0, 1] S_
  h_S_ : 0 < S_.numel

variable [Facts]

def fn {F : FTy → Type} [FloatOps F] (main_arg0 : FVec F S12288x768 .f32) : IVec S_ 1 :=
  let main_v0 : FVec F S12288x768 .f32 := Host.absf main_arg0
  let main_cst : FVec F S_ .f32 := constant S_ .f32 0x7F800000#32
  let main_v1 : FVec F S12288x768 .f32 := broadcastInDim S12288x768 ![] bcast_S_S12288x768 main_cst
  let main_v2 : IVec S12288x768 1 := cmpf .olt main_v0 main_v1
  let main_c : IVec S_ 1 := constantI S_ 1 1#1
  let main_v3 : IVec S_ 1 := (fun x v => Host.reduce IntOp.andi x v reducesTo_S12288x768_S_d0_1 h_S_) main_v2 main_c
  main_v3
-- ==== Kernel.lean ====
abbrev S1536x768 : Shape := ⟨2, ![1536, 768]⟩
abbrev S1x768 : Shape := ⟨2, ![1, 768]⟩
abbrev S8x1x768 : Shape := ⟨3, ![8, 1, 768]⟩
abbrev S8 : Shape := ⟨1, ![8]⟩
abbrev S_ : Shape := ⟨0, ![]⟩
abbrev S768 : Shape := ⟨1, ![768]⟩
abbrev S1x1x768 : Shape := ⟨3, ![1, 1, 768]⟩
abbrev S1 : Shape := ⟨1, ![1]⟩
abbrev S8x768 : Shape := ⟨2, ![8, 768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S8x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v102 : BitVec 32 := Scalar.addi v2 c1_i32_68
  let c8_i32_69 : BitVec 32 := 8#32
  let c0_i32_70 : BitVec 32 := 0#32
  let v103 : BitVec 1 := Scalar.cmpi .eq c8_i32_69 c0_i32_70
  let c1_i32_71 : BitVec 32 := 1#32
  let v104 : BitVec 32 := Scalar.select v103 c1_i32_71 c8_i32_69
  let v105 : BitVec 32 := Scalar.remsi v102 v104
  let c0_i32_73 : BitVec 32 := 0#32
  let v107 : BitVec 1 := Scalar.cmpi .slt v105 c0_i32_73
  let c0_i32_74 : BitVec 32 := 0#32
  let v108 : BitVec 1 := Scalar.cmpi .slt v104 c0_i32_74
  let v109 : BitVec 1 := Scalar.xori v107 v108
  let c0_i32_72 : BitVec 32 := 0#32
  let v106 : BitVec 1 := Scalar.cmpi .ne v105 c0_i32_72
  let v110 : BitVec 1 := Scalar.andi v109 v106
  let v111 : BitVec 32 := Scalar.addi v105 v104
  let v112 : BitVec 32 := Scalar.select v110 v111 v105
  let c1_i32_79 : BitVec 32 := 1#32
  let v113 : BitVec 32 := Scalar.muli v112 c1_i32_79
  let v114 : BitVec 32 := Scalar.addi c0_i32_80 v113
  v114.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v123 : BitVec 32 := Scalar.addi v2 c2_i32_85
  let c8_i32_86 : BitVec 32 := 8#32
  let c0_i32_87 : BitVec 32 := 0#32
  let v124 : BitVec 1 := Scalar.cmpi .eq c8_i32_86 c0_i32_87
  let c1_i32_88 : BitVec 32 := 1#32
  let v125 : BitVec 32 := Scalar.select v124 c1_i32_88 c8_i32_86
  let v126 : BitVec 32 := Scalar.remsi v123 v125
  let c0_i32_90 : BitVec 32 := 0#32
  let v128 : BitVec 1 := Scalar.cmpi .slt v126 c0_i32_90
  let c0_i32_91 : BitVec 32 := 0#32
  let v129 : BitVec 1 := Scalar.cmpi .slt v125 c0_i32_91
  let v130 : BitVec 1 := Scalar.xori v128 v129
  let c0_i32_89 : BitVec 32 := 0#32
  let v127 : BitVec 1 := Scalar.cmpi .ne v126 c0_i32_89
  let v131 : BitVec 1 := Scalar.andi v130 v127
  let v132 : BitVec 32 := Scalar.addi v126 v125
  let v133 : BitVec 32 := Scalar.select v131 v132 v126
  let c1_i32_96 : BitVec 32 := 1#32
  let v134 : BitVec 32 := Scalar.muli v133 c1_i32_96
  let v135 : BitVec 32 := Scalar.addi c0_i32_97 v134
  v135.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v144 : BitVec 32 := Scalar.addi v2 c3_i32_102
  let c8_i32_103 : BitVec 32 := 8#32
  let c0_i32_104 : BitVec 32 := 0#32
  let v145 : BitVec 1 := Scalar.cmpi .eq c8_i32_103 c0_i32_104
  let c1_i32_105 : BitVec 32 := 1#32
  let v146 : BitVec 32 := Scalar.select v145 c1_i32_105 c8_i32_103
  let v147 : BitVec 32 := Scalar.remsi v144 v146
  let c0_i32_107 : BitVec 32 := 0#32
  let v149 : BitVec 1 := Scalar.cmpi .slt v147 c0_i32_107
  let c0_i32_108 : BitVec 32 := 0#32
  let v150 : BitVec 1 := Scalar.cmpi .slt v146 c0_i32_108
  let v151 : BitVec 1 := Scalar.xori v149 v150
  let c0_i32_106 : BitVec 32 := 0#32
  let v148 : BitVec 1 := Scalar.cmpi .ne v147 c0_i32_106
  let v152 : BitVec 1 := Scalar.andi v151 v148
  let v153 : BitVec 32 := Scalar.addi v147 v146
  let v154 : BitVec 32 := Scalar.select v152 v153 v147
  let c1_i32_113 : BitVec 32 := 1#32
  let v155 : BitVec 32 := Scalar.muli v154 c1_i32_113
  let v156 : BitVec 32 := Scalar.addi c0_i32_114 v155
  v156.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v165 : BitVec 32 := Scalar.addi v2 c4_i32_119
  let c8_i32_120 : BitVec 32 := 8#32
  let c0_i32_121 : BitVec 32 := 0#32
  let v166 : BitVec 1 := Scalar.cmpi .eq c8_i32_120 c0_i32_121
  let c1_i32_122 : BitVec 32 := 1#32
  let v167 : BitVec 32 := Scalar.select v166 c1_i32_122 c8_i32_120
  let v168 : BitVec 32 := Scalar.remsi v165 v167
  let c0_i32_124 : BitVec 32 := 0#32
  let v170 : BitVec 1 := Scalar.cmpi .slt v168 c0_i32_124
  let c0_i32_125 : BitVec 32 := 0#32
  let v171 : BitVec 1 := Scalar.cmpi .slt v167 c0_i32_125
  let v172 : BitVec 1 := Scalar.xori v170 v171
  let c0_i32_123 : BitVec 32 := 0#32
  let v169 : BitVec 1 := Scalar.cmpi .ne v168 c0_i32_123
  let v173 : BitVec 1 := Scalar.andi v172 v169
  let v174 : BitVec 32 := Scalar.addi v168 v167
  let v175 : BitVec 32 := Scalar.select v173 v174 v168
  let c1_i32_130 : BitVec 32 := 1#32
  let v176 : BitVec 32 := Scalar.muli v175 c1_i32_130
  let v177 : BitVec 32 := Scalar.addi c0_i32_131 v176
  v177.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v186 : BitVec 32 := Scalar.addi v2 c5_i32_136
  let c8_i32_137 : BitVec 32 := 8#32
  let c0_i32_138 : BitVec 32 := 0#32
  let v187 : BitVec 1 := Scalar.cmpi .eq c8_i32_137 c0_i32_138
  let c1_i32_139 : BitVec 32 := 1#32
  let v188 : BitVec 32 := Scalar.select v187 c1_i32_139 c8_i32_137
  let v189 : BitVec 32 := Scalar.remsi v186 v188
  let c0_i32_141 : BitVec 32 := 0#32
  let v191 : BitVec 1 := Scalar.cmpi .slt v189 c0_i32_141
  let c0_i32_142 : BitVec 32 := 0#32
  let v192 : BitVec 1 := Scalar.cmpi .slt v188 c0_i32_142
  let v193 : BitVec 1 := Scalar.xori v191 v192
  let c0_i32_140 : BitVec 32 := 0#32
  let v190 : BitVec 1 := Scalar.cmpi .ne v189 c0_i32_140
  let v194 : BitVec 1 := Scalar.andi v193 v190
  let v195 : BitVec 32 := Scalar.addi v189 v188
  let v196 : BitVec 32 := Scalar.select v194 v195 v189
  let c1_i32_147 : BitVec 32 := 1#32
  let v197 : BitVec 32 := Scalar.muli v196 c1_i32_147
  let v198 : BitVec 32 := Scalar.addi c0_i32_148 v197
  v198.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_153 : BitVec 32 := 6#32
  let v207 : BitVec 32 := Scalar.addi v2 c6_i32_153
  let c8_i32_154 : BitVec 32 := 8#32
  let c0_i32_155 : BitVec 32 := 0#32
  let v208 : BitVec 1 := Scalar.cmpi .eq c8_i32_154 c0_i32_155
  let c1_i32_156 : BitVec 32 := 1#32
  let v209 : BitVec 32 := Scalar.select v208 c1_i32_156 c8_i32_154
  let v210 : BitVec 32 := Scalar.remsi v207 v209
  let c0_i32_158 : BitVec 32 := 0#32
  let v212 : BitVec 1 := Scalar.cmpi .slt v210 c0_i32_158
  let c0_i32_159 : BitVec 32 := 0#32
  let v213 : BitVec 1 := Scalar.cmpi .slt v209 c0_i32_159
  let v214 : BitVec 1 := Scalar.xori v212 v213
  let c0_i32_157 : BitVec 32 := 0#32
  let v211 : BitVec 1 := Scalar.cmpi .ne v210 c0_i32_157
  let v215 : BitVec 1 := Scalar.andi v214 v211
  let v216 : BitVec 32 := Scalar.addi v210 v209
  let v217 : BitVec 32 := Scalar.select v215 v216 v210
  let c1_i32_164 : BitVec 32 := 1#32
  let v218 : BitVec 32 := Scalar.muli v217 c1_i32_164
  let v219 : BitVec 32 := Scalar.addi c0_i32_165 v218
  v219.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_170 : BitVec 32 := 7#32
  let v228 : BitVec 32 := Scalar.addi v2 c7_i32_170
  let c8_i32_171 : BitVec 32 := 8#32
  let c0_i32_172 : BitVec 32 := 0#32
  let v229 : BitVec 1 := Scalar.cmpi .eq c8_i32_171 c0_i32_172
  let c1_i32_173 : BitVec 32 := 1#32
  let v230 : BitVec 32 := Scalar.select v229 c1_i32_173 c8_i32_171
  let v231 : BitVec 32 := Scalar.remsi v228 v230
  let c0_i32_175 : BitVec 32 := 0#32
  let v233 : BitVec 1 := Scalar.cmpi .slt v231 c0_i32_175
  let c0_i32_176 : BitVec 32 := 0#32
  let v234 : BitVec 1 := Scalar.cmpi .slt v230 c0_i32_176
  let v235 : BitVec 1 := Scalar.xori v233 v234
  let c0_i32_174 : BitVec 32 := 0#32
  let v232 : BitVec 1 := Scalar.cmpi .ne v231 c0_i32_174
  let v236 : BitVec 1 := Scalar.andi v235 v232
  let v237 : BitVec 32 := Scalar.addi v231 v230
  let v238 : BitVec 32 := Scalar.select v236 v237 v231
  let c1_i32_181 : BitVec 32 := 1#32
  let v239 : BitVec 32 := Scalar.muli v238 c1_i32_181
  let v240 : BitVec 32 := Scalar.addi c0_i32_182 v239
  v240.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S8x1x768_S1x1x768_0_0_0 : ∀ a, (![0, 0, 0] : Fin 3 → Nat) a + S1x1x768.size a ≤ S8x1x768.size a
  h_S1x1x768 : 0 < S1x1x768.numel
  shapeCasts_S1x1x768_S1x768 : S1x1x768.ShapeCasts S1x768
  shapeCasts_S1x768_S1x1x768 : S1x768.ShapeCasts S1x1x768
  hamt_7 : (7#32 : BitVec 32).msb = false
  inb_S8_S1_1 : ∀ a, (![1] : Fin 1 → Nat) a + S1.size a ≤ S8.size a
  squeezes_S1_S_ : S1.Squeezes S_
  inb_S8x1x768_S1x1x768_1_0_0 : ∀ a, (![1, 0, 0] : Fin 3 → Nat) a + S1x1x768.size a ≤ S8x1x768.size a
  squeezes_S1x1x768_S1x768 : S1x1x768.Squeezes S1x768
  inb_S8_S1_2 : ∀ a, (![2] : Fin 1 → Nat) a + S1.size a ≤ S8.size a
  inb_S8x1x768_S1x1x768_2_0_0 : ∀ a, (![2, 0, 0] : Fin 3 → Nat) a + S1x1x768.size a ≤ S8x1x768.size a
  inb_S8_S1_3 : ∀ a, (![3] : Fin 1 → Nat) a + S1.size a ≤ S8.size a
  inb_S8x1x768_S1x1x768_3_0_0 : ∀ a, (![3, 0, 0] : Fin 3 → Nat) a + S1x1x768.size a ≤ S8x1x768.size a
  inb_S8_S1_4 : ∀ a, (![4] : Fin 1 → Nat) a + S1.size a ≤ S8.size a
  inb_S8x1x768_S1x1x768_4_0_0 : ∀ a, (![4, 0, 0] : Fin 3 → Nat) a + S1x1x768.size a ≤ S8x1x768.size a
  inb_S8_S1_5 : ∀ a, (![5] : Fin 1 → Nat) a + S1.size a ≤ S8.size a
  inb_S8x1x768_S1x1x768_5_0_0 : ∀ a, (![5, 0, 0] : Fin 3 → Nat) a + S1x1x768.size a ≤ S8x1x768.size a
  inb_S8_S1_6 : ∀ a, (![6] : Fin 1 → Nat) a + S1.size a ≤ S8.size a
  inb_S8x1x768_S1x1x768_6_0_0 : ∀ a, (![6, 0, 0] : Fin 3 → Nat) a + S1x1x768.size a ≤ S8x1x768.size a
  inb_S8_S1_7 : ∀ a, (![7] : Fin 1 → Nat) a + S1.size a ≤ S8.size a
  inb_S8x1x768_S1x1x768_7_0_0 : ∀ a, (![7, 0, 0] : Fin 3 → Nat) a + S1x1x768.size a ≤ S8x1x768.size a
  inb_S8x1x768_S8x1x768_0_0_0 : ∀ a, (![0, 0, 0] : Fin 3 → Nat) a + S8x1x768.size a ≤ S8x1x768.size a
  h_S8x1x768 : 0 < S8x1x768.numel
  shapeCasts_S8x1x768_S8x768 : S8x1x768.ShapeCasts S8x768
  reduces_S8x768_S768 : S8x768.Reduces [0] S768
  inb_S1x768_S1x768_0_0 : ∀ a, (![0, 0] : Fin 2 → Nat) a + S1x768.size a ≤ S1x768.size a
  h_S1x768 : 0 < S1x768.numel
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S12288x768_S768_d0 : S12288x768.ReducesTo [0] S768
  h_S_ : 0 < S_.numel
  bcast_S768_S1x768_1 : S768.BroadcastsInDim S1x768 (![1] : Fin 1 → Fin S1x768.rank)
  bcast_S_S1x768 : S_.BroadcastsInDim S1x768 (![] : Fin 0 → Fin S1x768.rank)

variable [Facts₀]

class Facts : Prop extends Facts₀ where

variable [Facts]
-- ==== Proof.KI.Defs.lean ====
/-
  The all-gather-and-average kernel on eight devices: the protocol's vocabulary.

  Device `c` sums the rows of its block of `x` into row 0 of an 8-row scratch, tells each of the seven other devices
  (one unit on its barrier semaphore) that it is inside the kernel, waits for the seven units the others send it, copies
  row 0 into row `j + 1` of the device `j + 1` places further round the mesh (for `j = 0 … 6`), waits for the seven rows
  the others copy into its own scratch, sums the eight rows, scales the sum by the named constant and stores it; then it
  waits for its seven outgoing copies. Row `i` of device `c`'s scratch ends holding the column sums of the device `i`
  places BEFORE `c`, so every device ends with the same eight rows in a different order, and the same result.
-/
import proofs.«900946_g7700000000000947_dist_mean_ax0_shard0_i_m1536_n768_v7x_i8_f32_1_alg».proof.Proof.Gen.KernelIdeal
import proofs.«900946_g7700000000000947_dist_mean_ax0_shard0_i_m1536_n768_v7x_i8_f32_1_alg».proof.Proof.Gen.KernelIdeal.Skeleton
import proofs.«900946_g7700000000000947_dist_mean_ax0_shard0_i_m1536_n768_v7x_i8_f32_1_alg».proof.Proof.Gen.KernelIdeal.Launch
import proofs.«900946_g7700000000000947_dist_mean_ax0_shard0_i_m1536_n768_v7x_i8_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: device `c`'s peer `j + 1` places on, and the offset back -/

/-- The device `j + 1` places after `c` round the mesh of eight. -/
def sh (j : Fin 7) (c : Dev nD) : Dev nD := ⟨(c.val + j.val + 1) % 8, Nat.mod_lt _ (by decide)⟩
/-- The offset that undoes offset `j`: `(j + 1) + (neg j + 1) = 8`. -/
def neg (j : Fin 7) : Fin 7 := ⟨6 - j.val, by omega⟩
/-- The device `i` places before `c`: whose column sums row `i` of `c`'s scratch ends holding. -/
def back (i : Fin 8) (c : Dev nD) : Dev nD := ⟨(c.val + 8 - i.val) % 8, Nat.mod_lt _ (by decide)⟩

theorem sh_neg_sh (j : Fin 7) (c : Dev nD) : sh (neg j) (sh j c) = c := by revert j c; decide
theorem sh_sh_neg (j : Fin 7) (c : Dev nD) : sh j (sh (neg j) c) = c := by revert j c; decide
theorem neg_neg (j : Fin 7) : neg (neg j) = j := by revert j; decide
theorem sh_ne (j : Fin 7) (c : Dev nD) : sh j c ≠ c := by revert j c; decide
theorem sh_inj_left (c : Dev nD) : Function.Injective fun j : Fin 7 => sh j c := by revert c; decide
theorem back_zero (c : Dev nD) : back 0 c = c := by revert c; decide
theorem back_succ (j : Fin 7) (c : Dev nD) : back j.succ c = sh (neg j) c := by revert j c; decide
/-- Row `j + 1` of the scratch of `c`'s peer `j` is `c`'s to fill. -/
theorem back_succ_sh (j : Fin 7) (c : Dev nD) : back j.succ (sh j c) = c := by revert j c; decide

/-! ## The memrefs and the cells -/

abbrev xM : Memref sig .tc .vmem S1536x768 .f32 := Memref.whole cc0_stg0_0
abbrev oM : Memref sig .tc .vmem S1x768 .f32 := Memref.whole cc0_stg1_0
abbrev gM : Memref sig .tc .vmem S8x1x768 .f32 := Memref.whole cc0_scratch0

/-- Row `i` of the scratch as a rectangle of the 8 × 1 × 768 buffer. -/
theorem row_inb (i : Fin 8) : ∀ a, (![i.val, 0, 0] : Fin 3 → Nat) a + S1x1x768.size a ≤ S8x1x768.size a := by revert i; decide
abbrev rowRect (i : Fin 8) : Rect S8x1x768 := Rect.unit (s := S8x1x768) ![i.val, 0, 0] S1x1x768.size (row_inb i)
/-- Row `i` of the scratch as the 1 × 768 memref a copy moves. -/
abbrev rowM (i : Fin 8) : Memref sig .tc .vmem S1x768 .f32 := (gM.slice (rowRect i) (fun _ => rfl)).squeeze S1x768 squeezes_S1x1x768_S1x768
/-- The elements of row `i`. -/
abbrev rowSet (i : Fin 8) (c : Dev nD) : Finset (Idx ((c : Thread nD τ).loc cc0_scratch0)) := (rowM i).view.set

/-- The runtime's barrier semaphore of collective id 0 (unscoped). -/
abbrev barS : Sem sig := (SemArray.scalar (sig.barrier 0 rfl) : Sems sig S_).sem
/-- The send and receive DMA semaphores of offset `j` (entries `j + 1` of the two scratch arrays). -/
abbrev sendS (j : Fin 7) : DmaSem sig := ⟨3 + j.val, by have := j.isLt; show 3 + j.val < 18; omega⟩
abbrev recvS (j : Fin 7) : DmaSem sig := ⟨11 + j.val, by have := j.isLt; show 11 + j.val < 18; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The kernel's own (scoped) semaphores the protocol uses, as the launch theorem indexes them: the seven send cells,
    then the seven receive cells. -/
abbrev osem : Bool × Fin 7 → SemLoc sig := fun bj => if bj.1 then .dma (recvS bj.2) else .dma (sendS bj.2)
/-- All the protocol's cells of one device: the barrier cell (`none`), the send cells, the receive cells. -/
abbrev csem : Option (Bool × Fin 7) → SemLoc sig := fun | none => .reg barS | some bj => osem bj
abbrev kcell (ck : Dev nD × Option (Bool × Fin 7)) : GSem nD τ sig := ((ck.1 : Thread nD τ), csem ck.2)

/-- The credit of one row's copy. -/
abbrev N : ℕ := (rowM 1).view.dmaCredit

/-! ## Contents -/

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, as the 1 × 1 × 768 vector the kernel stores into row 0. -/
def colsum (c : Dev nD) : FVec F S1x1x768 .f32 := k0_pay2 (k0_pay1 (xstg m ρ c))

/-- What device `c`'s scratch ends holding: row `i` the column sums of the device `i` places before `c`. -/
def gath (c : Dev nD) : Buf (Elt F) ((c : Thread nD τ).loc cc0_scratch0) :=
  fun i => colsum m ρ (back ⟨(i 0).val, (i 0).isLt⟩ c) (ValueIdx.ix3 (0 : Fin 1) (0 : Fin 1) (⟨(i 2).val, (i 2).isLt⟩ : Fin 768))

/-- The kernel's result on device `c`: the eight rows summed and scaled (the skeleton's payload `k0_pay3`). -/
def outAt (c : Dev nD) : (cc0_stg1_0 : Ref sig .tc).ty.Contents (Elt F) := k0_pay3 (gath m ρ c)

/-! ## Points-tos -/

/-- The shares a device's row 0 is held at while its seven copies read it: copy `n` takes the left half of what
    the copies before it left. -/
def restQ : ℕ → PosShare TreeShare
  | 0 => fullShare
  | n + 1 => (restQ n).right
def sendQ (n : ℕ) : PosShare TreeShare := (restQ n).left

/-- Row `i` of device `c`'s scratch at share `q`, the scratch holding `f` there. -/
def rowPts (c : Dev nD) (i : Fin 8) (q : PosShare TreeShare) (f : Buf (Elt F) ((c : Thread nD τ).loc cc0_scratch0)) : sProp 𝕄 :=
  (rowM i).view.loc (c : Thread nD τ) ↦[(rowM i).view.set]{q} f
/-- The whole scratch. -/
def scrPts (c : Dev nD) (q : PosShare TreeShare) (f : Buf (Elt F) ((c : Thread nD τ).loc cc0_scratch0)) : sProp 𝕄 :=
  ((c : Thread nD τ).loc cc0_scratch0) ↦{q} f
def xPts (c : Dev nD) : sProp 𝕄 := ((c : Thread nD τ).loc cc0_stg0_0) ↦{fullShare} xstg m ρ c

/-! ## The schedule -/

abbrev IsBar (g : GSem nD τ sig) : Prop := g.1.2 = .tc ∧ g.2 = .reg barS
abbrev IsSend (g : GSem nD τ sig) : Prop := g.1.2 = .tc ∧ ∃ j : Fin 7, g.2 = .dma (sendS j)
abbrev IsRecv (g : GSem nD τ sig) : Prop := g.1.2 = .tc ∧ ∃ j : Fin 7, g.2 = .dma (recvS j)

/-- The offset of a send or receive semaphore (entry `j + 1` of its array); 0 for any other. -/
def offOf (s : SemLoc sig) : Fin 7 :=
  match s with
  | .dma q => if h : 3 ≤ q.val ∧ q.val < 10 then ⟨q.val - 3, by omega⟩ else if h : 11 ≤ q.val ∧ q.val < 18 then ⟨q.val - 11, by omega⟩ else 0
  | _ => 0

/-- What duty `d` of device `c`'s barrier cell hands it: row `d + 1` of the scratch of its peer `d`, which that peer
    gives up when it signals. -/
def barPay (c : Dev nD) (d : Fin 7) : sProp 𝕄 := iprop(∃ f, rowPts (sh d c) d.succ fullShare f)
/-- A landed copy: row `j + 1` of the device's scratch holding what it ends holding. -/
def recvPay (c : Dev nD) (j : Fin 7) : sProp 𝕄 := rowPts c j.succ fullShare (gath m ρ c)
/-- A finished outgoing copy: its share of row 0 back. -/
def sendPay (c : Dev nD) (j : Fin 7) : sProp 𝕄 := rowPts c 0 (sendQ j.val) (gath m ρ c)

/-- One round, round 0: a barrier cell has seven duties of one unit each, duty `d` paid by the peer `d`; a send or
    receive cell the one duty `0` of a row's credit. -/
def Rd : Rounds.Schedule (GSem nD τ sig) (Fin 7) 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m ρ g.1.1 (offOf g.2)
    else if IsSend g then sendPay m ρ g.1.1 (offOf g.2)
    else iprop(emp)
  amount_pos g _ _ _ := by
    by_cases h : g.2 = .reg barS
    · rw [if_pos h]; exact Nat.one_pos
    · rw [if_neg h]; exact View.dmaCredit_pos _ (by decide)

/-! ## What each device owes at launch; the levels -/

/-- The units device `c` still owes once it has sent its first `a` barrier signals and started its first `b` copies:
    a row's credit on the receive cell of each later copy's target, a unit on each later signal's target's barrier
    cell — summed so that each step pays the LAST summand. -/
def owedR (c : Dev nD) : ℕ → CellTallies nD τ sig Unit
  | 0 => 0
  | n + 1 => if h : n < 7 then owedR c n + tallyAt (recvCell (sh ⟨6 - n, by omega⟩ c) ⟨6 - n, by omega⟩) () N else owedR c n
def owedB (c : Dev nD) : ℕ → CellTallies nD τ sig Unit
  | 0 => owedR c 7
  | n + 1 => if h : n < 7 then owedB c n + tallyAt (barCell (sh ⟨6 - n, by omega⟩ c)) () 1 else owedB c n
def O₀ (c : Dev nD) : CellTallies nD τ sig Unit := owedB c 7

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if ∃ j : Fin 7, g.2 = .dma (recvS j) then 2 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own fifteen,
    every peer's barrier cell (its signals), each peer's receive cell of the offset it is reached by (its copies). -/
def invs (K : Dev nD × Option (Bool × Fin 7) → ℕ) (c : Dev nD) : sProp 𝕄 :=
  iprop(cellInv ER (Rd m ρ) (K (c, none)) (barCell c)
    ∗ (bigSep Finset.univ fun j : Fin 7 => cellInv ER (Rd m ρ) (K (c, some (false, j))) (sendCell c j))
    ∗ (bigSep Finset.univ fun j : Fin 7 => cellInv ER (Rd m ρ) (K (c, some (true, j))) (recvCell c j))
    ∗ (bigSep Finset.univ fun j : Fin 7 => cellInv ER (Rd m ρ) (K (sh j c, none)) (barCell (sh j c)))
    ∗ (bigSep Finset.univ fun j : Fin 7 => cellInv ER (Rd m ρ) (K (sh j c, some (true, j))) (recvCell (sh j c) j)))

instance invs_persistent (K : Dev nD × Option (Bool × Fin 7) → ℕ) (c : Dev nD) : BI.Persistent (invs m ρ K c) := by unfold invs; infer_instance

/-- Round 0 of every cell the device pays or owns is reached. -/
def reacheds (c : Dev nD) : sProp 𝕄 :=
  iprop((bigSep Finset.univ fun j : Fin 7 => reached ER (barCell (sh j c)) 0)
    ∗ (bigSep Finset.univ fun j : Fin 7 => reached ER (recvCell (sh j c) j) 0)
    ∗ (bigSep Finset.univ fun j : Fin 7 => reached ER (sendCell c j) 0))

instance reacheds_persistent (c : Dev nD) : BI.Persistent (reacheds (F := F) c) := by unfold reacheds; infer_instance

/-- The protocol's ghost state device `c` starts from: the invariants; the reached-marks; its positions at round 0 of its
    fifteen cells; the duty tokens it pays with — duty `neg j` of its peer `j`'s barrier cell, the duty of that peer's
    receive cell of offset `j`, the duty of its own send cell `j`. -/
def ghost (K : Dev nD × Option (Bool × Fin 7) → ℕ) (c : Dev nD) : sProp 𝕄 :=
  iprop(invs m ρ K c ∗ reacheds c
    ∗ atPos ER (barCell c) 0 ∅ 0
    ∗ (bigSep Finset.univ fun j : Fin 7 => atPos ER (sendCell c j) 0 ∅ 0)
    ∗ (bigSep Finset.univ fun j : Fin 7 => atPos ER (recvCell c j) 0 ∅ 0)
    ∗ (bigSep Finset.univ fun j : Fin 7 => dutyTok ER (barCell (sh j c)) 0 (neg j))
    ∗ (bigSep Finset.univ fun j : Fin 7 => dutyTok ER (recvCell (sh j c) j) 0 0)
    ∗ (bigSep Finset.univ fun j : Fin 7 => dutyTok ER (sendCell c j) 0 0))

/-- What device `c`'s body starts from: that at some names, the credit tokens of its barrier cell (seven units) and of
    its seven receive cells (a row's credit each), and the level facts. -/
def start (c : Dev nD) : sProp 𝕄 :=
  iprop((∃ K, ghost m ρ K c) ∗ cred (tallyAt (barCell c) () 7)
    ∗ (bigSep Finset.univ fun j : Fin 7 => cred (tallyAt (recvCell c j) () N)) ∗ levAts L lv)

def Φ₀ (c : Dev nD) : sProp 𝕄 := iprop(start m ρ c ∗ ∃ f, scrPts c fullShare f)
/-- After the point: the scratch holding the eight rows, the fourteen OWN cells at zero, closed (the barrier cell is
    the runtime's: nothing to hand back). -/
def Φ₁ (c : Dev nD) : sProp 𝕄 :=
  iprop(scrPts c fullShare (gath m ρ c) ∗ (bigSep Finset.univ fun j : Fin 7 => semVal (sendCell c j) 0)
    ∗ (bigSep Finset.univ fun j : Fin 7 => semVal (recvCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre- and postcondition, and its state between the outgoing copies and the incoming ones -/

omit [FloatOps F] [Named F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [Named F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Option (Bool × Fin 7) → ℕ) (c : Dev nD) : sProp 𝕄 :=
  iprop((ghost m ρ K c ∗ cred (tallyAt (barCell c) () 7) ∗ (bigSep Finset.univ fun j : Fin 7 => cred (tallyAt (recvCell c j) () N))
      ∗ levAts L lv ∗ ∃ f, scrPts c fullShare f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- Between the seventh outgoing copy's start and the first wait for an incoming one: the device owes nothing more; it
    holds its send cells' credit, its receive cells' launch credit, its positions at round 0 of those fourteen cells, what the
    copies left it of row 0, its block of `x` and the result's staging buffer. -/
def midSt (K : Dev nD × Option (Bool × Fin 7) → ℕ) (c : Dev nD) : sProp 𝕄 :=
  iprop(invs m ρ K c ∗ levAts L lv
    ∗ (∃ W : Waits sig Unit, owes (c : Thread nD τ) 0 W)
    ∗ (bigSep Finset.univ fun j : Fin 7 => atPos ER (sendCell c j) 0 ∅ 0)
    ∗ (bigSep Finset.univ fun j : Fin 7 => cred (tallyAt (sendCell c j) () N))
    ∗ (bigSep Finset.univ fun j : Fin 7 => atPos ER (recvCell c j) 0 ∅ 0)
    ∗ (bigSep Finset.univ fun j : Fin 7 => cred (tallyAt (recvCell c j) () N))
    ∗ rowPts c 0 (restQ 7) (gath m ρ c)
    ∗ xPts m ρ c
    ∗ (∃ g1, ((c : Thread nD τ).loc cc0_stg1_0) ↦{fullShare} g1))

/-- The program from the first wait for an incoming copy on (the printed parts 9 to 12 and the last wait). -/
def backProg (v133 v154 v175 v196 v217 v238 : BitVec 32) : Prog (TpuEff nD τ sig (Elt F) Λ₀ .tc) PUnit := do
  k0_part9 (Memref.whole cc0_stg0_0) (Memref.isWhole_whole _) (Memref.whole cc0_stg1_0) (Memref.isWhole_whole _) (Memref.whole cc0_scratch0) (Memref.isWhole_whole _) cc0_scratch1 cc0_scratch2 v133 v154 v175
  k0_part10 (Memref.whole cc0_stg0_0) (Memref.isWhole_whole _) (Memref.whole cc0_stg1_0) (Memref.isWhole_whole _) (Memref.whole cc0_scratch0) (Memref.isWhole_whole _) cc0_scratch1 cc0_scratch2 v196 v217 v238
  k0_part11 (Memref.whole cc0_stg0_0) (Memref.isWhole_whole _) (Memref.whole cc0_stg1_0) (Memref.isWhole_whole _) (Memref.whole cc0_scratch0) (Memref.isWhole_whole _) cc0_scratch1 cc0_scratch2
  k0_part12 (Memref.whole cc0_stg0_0) (Memref.isWhole_whole _) (Memref.whole cc0_stg1_0) (Memref.isWhole_whole _) (Memref.whole cc0_scratch0) (Memref.isWhole_whole _) cc0_scratch1 cc0_scratch2
  let v352 : Memref sig .tc .vmem S1x1x768 .f32 := (Memref.whole cc0_scratch0 : Memref sig .tc .vmem S8x1x768 .f32).slice (Rect.unit (s := S8x1x768) ![7, 0, 0] S1x1x768.size inb_S8x1x768_S1x1x768_7_0_0) (fun _ => rfl)
  let v353 : Memref sig .tc .vmem S1x768 .f32 := v352.squeeze S1x768 squeezes_S1x1x768_S1x768
  let v348 : DmaSems sig S1 := cc0_scratch1.slice (Rect.unit (s := S8) ![7] S1.size inb_S8_S1_7)
  let v349 : DmaSems sig S_ := v348.squeeze S_ squeezes_S1_S_
  let v350 : Memref sig .tc .vmem S1x1x768 .f32 := (Memref.whole cc0_scratch0 : Memref sig .tc .vmem S8x1x768 .f32).slice (Rect.unit (s := S8x1x768) ![0, 0, 0] S1x1x768.size inb_S8x1x768_S1x1x768_0_0_0) (fun _ => rfl)
  let v351 : Memref sig .tc .vmem S1x768 .f32 := v350.squeeze S1x768 squeezes_S1x1x768_S1x768
  Prog.lift (.waitDma2 v349.sem v353 v351 ((View.wordExact_bits rfl).reshape _ _) ((View.wordExact_bits rfl).reshape _ _))
  pure ⟨⟩

end Cert.KernelIdeal.Hand

end
-- ==== Proof.KI.Sched.lean ====
/-
  The schedule's tables read cell by cell, what a device owes step by step, the levels that allow each wait, and the
  credit each device's cells are dealt at launch.
-/
import proofs.«900946_g7700000000000947_dist_mean_ax0_shard0_i_m1536_n768_v7x_i8_f32_1_alg».proof.Proof.KI.Defs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells told apart -/

/-- A send or receive cell is a DMA semaphore, the barrier cell a regular one. -/
theorem send_ne_bar (j : Fin 7) : (SemLoc.dma (sendS j) : SemLoc sig) ≠ .reg barS := fun h => by cases h
theorem recv_ne_bar (j : Fin 7) : (SemLoc.dma (recvS j) : SemLoc sig) ≠ .reg barS := fun h => by cases h
/-- The send semaphores are entries 3 … 9, the receive semaphores entries 11 … 17: no send semaphore is a receive one. -/
theorem send_ne_recv (j j' : Fin 7) : (SemLoc.dma (sendS j) : SemLoc sig) ≠ .dma (recvS j') := fun h => by
  have h1 : (sendS j).val = (recvS j').val := congrArg Fin.val (SemLoc.dma.inj h)
  have h2 : 3 + j.val = 11 + j'.val := h1
  have := j.isLt
  omega

theorem isSend_send (c : Dev nD) (j : Fin 7) : IsSend (sendCell c j) := ⟨rfl, j, rfl⟩
theorem isRecv_recv (c : Dev nD) (j : Fin 7) : IsRecv (recvCell c j) := ⟨rfl, j, rfl⟩
theorem not_isBar_send (c : Dev nD) (j : Fin 7) : ¬ IsBar (sendCell c j) := fun h => send_ne_bar j h.2
theorem not_isBar_recv (c : Dev nD) (j : Fin 7) : ¬ IsBar (recvCell c j) := fun h => recv_ne_bar j h.2
theorem not_isRecv_send (c : Dev nD) (j : Fin 7) : ¬ IsRecv (sendCell c j) := fun h => by
  obtain ⟨_, j', h'⟩ := h
  exact send_ne_recv j j' h'

/-- The offset read back off a send or a receive semaphore. -/
theorem offOf_send (j : Fin 7) : offOf (SemLoc.dma (sendS j) : SemLoc sig) = j := by revert j; decide
theorem offOf_recv (j : Fin 7) : offOf (SemLoc.dma (recvS j) : SemLoc sig) = j := by revert j; decide

section Sched
variable (c : Dev nD) (j : Fin 7)

theorem N_pos : 0 < N := View.dmaCredit_pos _ (by decide)

theorem duties_bar : (Rd (F := F) m ρ).duties (barCell c) 0 = Finset.univ := by dsimp only [Rd]; exact if_pos ⟨rfl, rfl, rfl⟩
theorem duties_send : (Rd (F := F) m ρ).duties (sendCell c j) 0 = {0} := by
  dsimp only [Rd]; rw [if_neg (fun h => not_isBar_send c j h.2)]; exact if_pos ⟨rfl, .inl (isSend_send c j)⟩
theorem duties_recv : (Rd (F := F) m ρ).duties (recvCell c j) 0 = {0} := by
  dsimp only [Rd]; rw [if_neg (fun h => not_isBar_recv c j h.2)]; exact if_pos ⟨rfl, .inr (isRecv_recv c j)⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 7) : (Rd (F := F) m ρ).amount (barCell c) 0 d = 1 := by dsimp only [Rd]; exact if_pos rfl
theorem amount_send (d : Fin 7) : (Rd (F := F) m ρ).amount (sendCell c j) 0 d = N := by dsimp only [Rd]; exact if_neg (send_ne_bar j)
theorem amount_recv (d : Fin 7) : (Rd (F := F) m ρ).amount (recvCell c j) 0 d = N := by dsimp only [Rd]; exact if_neg (recv_ne_bar j)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : Fin 7) : (Rd (F := F) m ρ).payload (barCell c) 0 d = barPay c d := by dsimp only [Rd]; rw [if_pos rfl]
theorem payload_send (d : Fin 7) : (Rd (F := F) m ρ).payload (sendCell c j) 0 d = sendPay m ρ c j := by
  dsimp only [Rd]; rw [if_neg (send_ne_bar j), if_neg (not_isRecv_send c j), if_pos (isSend_send c j), offOf_send]
theorem payload_recv (d : Fin 7) : (Rd (F := F) m ρ).payload (recvCell c j) 0 d = recvPay m ρ c j := by
  dsimp only [Rd]; rw [if_neg (recv_ne_bar j), if_pos (isRecv_recv c j), offOf_recv]

/-- The rest of a barrier cell's round, no duty taken: every peer's row for this device. -/
theorem rest_bar : bigSep ((Rd (F := F) m ρ).duties (barCell c) 0 \ ∅) (fun d => (Rd (F := F) m ρ).payload (barCell c) 0 d)
    = bigSep Finset.univ (fun d : Fin 7 => barPay (F := F) c d) := by
  rw [Finset.sdiff_empty, duties_bar]
  exact bigSep_congr fun d _ => payload_bar m ρ c d
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

instance Rd_payload_storable (g : GSem nD τ sig) (r : ℕ) (d : Fin 7) :
    BI.Storable (upEmb : UEmb _ 𝕄) ((Rd (F := F) m ρ).payload g r d) := by
  show BI.Storable upEmb (if g.2 = .reg barS then barPay g.1.1 d else if IsRecv g then recvPay m ρ g.1.1 (offOf g.2)
    else if IsSend g then sendPay m ρ g.1.1 (offOf g.2) else iprop(emp))
  unfold barPay recvPay sendPay rowPts
  (repeat' split) <;> infer_instance

/-- Signal `j` pays the last summand of what is owed before it; copy `j` likewise. -/
theorem owedB_step : owedB c (7 - j.val) = owedB c (6 - j.val) + tallyAt (barCell (sh j c)) () 1 := by
  fin_cases j <;> rfl
theorem owedR_step : owedR c (7 - j.val) = owedR c (6 - j.val) + tallyAt (recvCell (sh j c) j) () N := by
  fin_cases j <;> rfl
theorem owedB_zero : owedB c 0 = owedR c 7 := rfl
theorem owedR_zero : owedR c 0 = 0 := rfl

end Sched

/-! ## What is owed, as sums over the seven offsets -/

/-- All seven copies still to start: a row's credit on the receive cell of offset `j` of each peer `j`. -/
theorem owedR_seven (c : Dev nD) : owedR c 7 = ∑ j : Fin 7, tallyAt (recvCell (sh j c) j) () N := by
  rw [Fin.sum_univ_seven]
  have e : owedR c 7 = 0 + tallyAt (recvCell (sh 6 c) 6) () N + tallyAt (recvCell (sh 5 c) 5) () N + tallyAt (recvCell (sh 4 c) 4) () N
      + tallyAt (recvCell (sh 3 c) 3) () N + tallyAt (recvCell (sh 2 c) 2) () N + tallyAt (recvCell (sh 1 c) 1) () N
      + tallyAt (recvCell (sh 0 c) 0) () N := rfl
  rw [e, zero_add]
  ac_rfl

/-- At launch: those, and a unit on the barrier cell of each of the seven peers. -/
theorem owedB_seven (c : Dev nD) : owedB c 7 = owedR c 7 + ∑ j : Fin 7, tallyAt (barCell (sh j c)) () 1 := by
  rw [Fin.sum_univ_seven]
  have e : owedB c 7 = owedR c 7 + tallyAt (barCell (sh 6 c)) () 1 + tallyAt (barCell (sh 5 c)) () 1 + tallyAt (barCell (sh 4 c)) () 1
      + tallyAt (barCell (sh 3 c)) () 1 + tallyAt (barCell (sh 2 c)) () 1 + tallyAt (barCell (sh 1 c)) () 1
      + tallyAt (barCell (sh 0 c)) () 1 := rfl
  rw [e]
  ac_rfl

/-- A tally at one cell is positive only at that cell. -/
theorem tallyAt_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

theorem owedR_pos {c : Dev nD} {g : GSem nD τ sig} {u : Unit} (h : 0 < owedR c 7 g u) : ∃ j : Fin 7, g = recvCell (sh j c) j := by
  rw [owedR_seven] at h
  obtain ⟨j, -, hj⟩ := Pipeline.sum_pos_exists h
  exact ⟨j, tallyAt_pos hj⟩

theorem O₀_pos {c : Dev nD} {g : GSem nD τ sig} {u : Unit} (h : 0 < O₀ c g u) :
    (∃ j : Fin 7, g = recvCell (sh j c) j) ∨ ∃ j : Fin 7, g = barCell (sh j c) := by
  unfold O₀ at h
  rw [owedB_seven] at h
  rcases Pipeline.add_pos_cases h with h | h
  · exact .inl (owedR_pos h)
  · obtain ⟨j, -, hj⟩ := Pipeline.sum_pos_exists h
    exact .inr ⟨j, tallyAt_pos hj⟩

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (j : Fin 7) : lv (recvCell c j) () = 2 := by
  dsimp only [lv]; rw [if_neg (recv_ne_bar j), if_pos ⟨j, rfl⟩]

/-- A staging cell's wait (any DMA semaphore that is no receive cell's) is below everything a device owes. -/
theorem mayWait_stage (c : Dev nD) (q : DmaSem sig) (hq : ∀ j : Fin 7, q ≠ recvS j) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by
        rw [Finset.mem_singleton.mp hp]; dsimp only [lv]
        rw [if_neg (fun h => by cases h), if_neg (fun h => by obtain ⟨j, h'⟩ := h; exact hq j (SemLoc.dma.inj h'))])
      (fun g u hg => by
        rcases O₀_pos hg with ⟨j, rfl⟩ | ⟨j, rfl⟩
        · rw [lv_recv]; decide
        · rw [lv_bar]; decide)
  · rw [MayWait_zero]; iintro -; iempintro

/-- At its barrier wait a device owes receive credit only: receive cells, above its barrier cell. -/
theorem mayWait_bar (c : Dev nD) :
    (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => by obtain ⟨j, rfl⟩ := owedR_pos hg; exact Finset.mem_singleton_self _)
    (fun p hp => by rw [Finset.mem_singleton.mp hp]; exact Nat.le_of_eq (lv_bar c))
    (fun g u hg => by obtain ⟨j, rfl⟩ := owedR_pos hg; rw [lv_recv]; decide)

/-! ## The launch credit -/

/-- Seven units on one cell, one from each peer. -/
theorem seven_units (g : GSem nD τ sig) : (∑ _j : Fin 7, tallyAt g () 1 : CellTallies nD τ sig Unit) = tallyAt g () 7 := by
  rw [Fin.sum_univ_seven]
  simp only [tallyAt_add]

/-- What every device owes at launch, as a function of the device: for each offset `j`, a row's credit on the receive cell
    of offset `j` of its peer `j` and a unit on that peer's barrier cell. Each summand is owed along the bijection `sh j`. -/
theorem O₀_sum : (O₀ : Dev nD → CellTallies nD τ sig Unit)
    = fun d => (∑ j : Fin 7, tallyAt (recvCell (sh j d) j) () N) + ∑ j : Fin 7, tallyAt (barCell (sh j d)) () 1 := by
  funext d
  show owedB d 7 = _
  rw [owedB_seven, owedR_seven]

/-- What the launch deals device `c`: seven units on its barrier cell, a row's credit on each of its receive cells. -/
theorem creds (c : Dev nD) :
    (Pipeline.launchCred O₀ c : sProp 𝕄)
      ⊢ iprop(cred (tallyAt (barCell c) () 7) ∗ bigSep Finset.univ fun j : Fin 7 => cred (tallyAt (recvCell c j) () N)) := by
  rw [O₀_sum, Pipeline.launchCred_add, Pipeline.launchCred_sum, Pipeline.launchCred_sum]
  have hB : (bigSep Finset.univ fun j : Fin 7 => Pipeline.launchCred (fun d => tallyAt (barCell (sh j d)) () 1) c : sProp 𝕄)
      ⊢ cred (tallyAt (barCell c) () 7) := by
    refine (bigSep_mono fun j _ => Pipeline.launchCred_tallyAt (SemLoc.reg barS) (sh j) (sh (neg j)) (sh_sh_neg j) (sh_neg_sh j) () 1 c).trans ?_
    rw [← Pipeline.cred_finsetSum Finset.univ (fun _ : Fin 7 => (tallyAt (barCell c) () 1 : CellTallies nD τ sig Unit)), seven_units]
    exact .refl _
  have hR : (bigSep Finset.univ fun j : Fin 7 => Pipeline.launchCred (fun d => tallyAt (recvCell (sh j d) j) () N) c : sProp 𝕄)
      ⊢ bigSep Finset.univ fun j : Fin 7 => cred (tallyAt (recvCell c j) () N) :=
    bigSep_mono fun j _ => Pipeline.launchCred_tallyAt (SemLoc.dma (recvS j)) (sh j) (sh (neg j)) (sh_sh_neg j) (sh_neg_sh j) () N c
  iintro ⟨HR, HB⟩
  isplitl [HB]
  · iapply hB; iexact HB
  · iapply hR; iexact HR

/-- info: 'Cert.KernelIdeal.Hand.creds' depends on axioms: [propext, Classical.choice, Quot.sound] -/
#guard_msgs in #print axioms creds

end Cert.KernelIdeal.Hand

end
-- ==== Proof.KI.Mem.lean ====
/-
  The scratch buffer cut into its eight rows and put together again, a row's share cut for the copies that read it,
  and what the loads, the stores and a landed copy leave, element by element.
-/
import proofs.«900946_g7700000000000947_dist_mean_ax0_shard0_i_m1536_n768_v7x_i8_f32_1_alg».proof.Proof.KI.Defs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Mem
variable (c : Dev nD)

/-! ## The rows of the scratch as element sets -/

omit [FloatOps F] [Named F] in
/-- Row `k`'s elements are the rectangle at offset `k` on the first axis: squeezing moves no element. -/
private theorem rowM_set (k : Fin 8) : (rowM k).view.set = (rowRect k).set :=
  (View.set_reshape _ _).trans (View.set_slice_whole _ _)

omit [FloatOps F] [Named F] in
/-- That rectangle holds exactly the indices whose first coordinate is `k`: the other two axes it spans whole. -/
private theorem mem_rowRect (k : Fin 8) (i : S8x1x768.Idx) : i ∈ (rowRect k).set ↔ (i 0).val = k.val := by
  rw [Rect.mem_set_unit]
  constructor
  · intro h
    have h0 := h 0
    simp only [Matrix.cons_val_zero] at h0
    omega
  · intro h a
    have h1 : (i 1).val < 1 := (i 1).isLt
    have h2 : (i 2).val < 768 := (i 2).isLt
    match a with
    | ⟨0, _⟩ => exact ⟨by show k.val ≤ (i 0).val; omega, by show (i 0).val < k.val + 1; omega⟩
    | ⟨1, _⟩ => exact ⟨Nat.zero_le _, by show (i 1).val < 0 + 1; omega⟩
    | ⟨2, _⟩ => exact ⟨Nat.zero_le _, by show (i 2).val < 0 + 768; omega⟩

omit [FloatOps F] [Named F] in
/-- An element of the scratch lies in row `k` exactly when its first coordinate is `k`. -/
private theorem mem_rowSet (k : Fin 8) (i : Idx ((c : Thread nD τ).loc cc0_scratch0)) : i ∈ rowSet k c ↔ (i 0).val = k.val := by
  show i ∈ (rowM k).view.set ↔ _
  rw [rowM_set]; exact mem_rowRect k i

omit [FloatOps F] [Named F] in
/-- Different rows share no element: they differ in the first coordinate. -/
private theorem rowSet_disjoint (k k' : Fin 8) (h : k ≠ k') : Disjoint (rowSet k c) (rowSet k' c) := by
  rw [Finset.disjoint_left]
  intro i hi hi'
  rw [mem_rowSet] at hi hi'
  exact h (Fin.ext (hi.symm.trans hi'))

omit [FloatOps F] [Named F] in
/-- Every element is in the row its first coordinate names. -/
private theorem rowSet_cover :
    (Finset.univ : Finset (Idx ((c : Thread nD τ).loc cc0_scratch0))) = Finset.univ.biUnion fun k : Fin 8 => rowSet k c := by
  ext i
  simp only [Finset.mem_univ, Finset.mem_biUnion, true_and, true_iff]
  exact ⟨⟨(i 0).val, (i 0).isLt⟩, (mem_rowSet c _ i).mpr rfl⟩

/-- The whole scratch is its eight rows. -/
theorem scr_rows (q : PosShare TreeShare) (f : Buf (Elt F) ((c : Thread nD τ).loc cc0_scratch0)) :
    scrPts (F := F) c q f = bigSep Finset.univ fun i : Fin 8 => rowPts c i q f := by
  unfold scrPts rowPts
  rw [rowSet_cover c]
  exact pointsTo_biUnion _ _ fun t _ t' _ htt => rowSet_disjoint c t t' htt

omit [FloatOps F] [Named F] in
/-- Eight things are the first and the seven others, the others in the order the signals give them up; or in order. -/
theorem bigSep_fin8_succ (Φ : Fin 8 → sProp 𝕄) : bigSep Finset.univ Φ = iprop(Φ 0 ∗ bigSep Finset.univ fun j : Fin 7 => Φ j.succ) := by
  rw [bigSep_fin8, bigSep_fin7]; rfl
omit [FloatOps F] [Named F] in
/-- Offset `j ↦ neg j` is its own inverse, so the seven others may be listed along it. -/
theorem bigSep_fin8_neg (Φ : Fin 8 → sProp 𝕄) : bigSep Finset.univ Φ = iprop(Φ 0 ∗ bigSep Finset.univ fun j : Fin 7 => Φ (neg j).succ) := by
  rw [bigSep_fin8_succ]
  congr 1
  exact bigSep_univ_equiv ⟨neg, neg, neg_neg, neg_neg⟩ (fun j : Fin 7 => Φ j.succ)

/-! ## The share chain -/

/-- What the copies before copy `n` left of a row is copy `n`'s share and the rest. -/
theorem row_rest_split (i : Fin 8) (n : ℕ) (f : Buf (Elt F) ((c : Thread nD τ).loc cc0_scratch0)) :
    rowPts (F := F) c i (restQ n) f ⊣⊢ iprop(rowPts c i (sendQ n) f ∗ rowPts c i (restQ (n + 1)) f) :=
  pointsTo_share (PosShare.mem_left_op_right (restQ n))

omit [FloatOps F] [Named F] in
/-- If `A` is `S` and `B`, and `B` is `R` and `T`, then `A` is `R` and (`S` and `T`). -/
private theorem chain_step {A B S R T : sProp 𝕄} (h₁ : A ⊣⊢ iprop(S ∗ B)) (h₂ : B ⊣⊢ iprop(R ∗ T)) : A ⊣⊢ iprop(R ∗ S ∗ T) :=
  h₁.trans ((sep_congr_right h₂).trans sep_left_comm)

/-- A row held in full is the seven copies' shares and what they leave. -/
theorem row_full_split (i : Fin 8) (f : Buf (Elt F) ((c : Thread nD τ).loc cc0_scratch0)) :
    rowPts (F := F) c i fullShare f ⊣⊢ iprop(rowPts c i (restQ 7) f ∗ bigSep Finset.univ fun n : Fin 7 => rowPts c i (sendQ n.val) f) := by
  rw [bigSep_fin7]
  have h6 : rowPts (F := F) c i (restQ 6) f ⊣⊢ iprop(rowPts c i (restQ 7) f ∗ rowPts c i (sendQ 6) f) :=
    (row_rest_split c i 6 f).trans sep_comm
  exact chain_step (row_rest_split c i 0 f) (chain_step (row_rest_split c i 1 f) (chain_step (row_rest_split c i 2 f)
    (chain_step (row_rest_split c i 3 f) (chain_step (row_rest_split c i 4 f) (chain_step (row_rest_split c i 5 f) h6)))))

/-- The same as an equation. -/
private theorem row_full_eq (i : Fin 8) (f : Buf (Elt F) ((c : Thread nD τ).loc cc0_scratch0)) :
    rowPts (F := F) c i fullShare f = iprop(rowPts c i (restQ 7) f ∗ bigSep Finset.univ fun n : Fin 7 => rowPts c i (sendQ n.val) f) :=
  BI.equiv_iff.mp ⟨(row_full_split c i f).1, (row_full_split c i f).2⟩

/-- Row 0 at what the copies left it and the seven other rows in full make the whole scratch at that share, the seven
    rows' other shares aside. -/
theorem rows_join_rest (f : Buf (Elt F) ((c : Thread nD τ).loc cc0_scratch0)) :
    iprop(rowPts (F := F) c 0 (restQ 7) f ∗ bigSep Finset.univ fun j : Fin 7 => rowPts c j.succ fullShare f)
      ⊢ iprop(scrPts c (restQ 7) f ∗ bigSep Finset.univ fun j : Fin 7 => bigSep Finset.univ fun n : Fin 7 => rowPts c j.succ (sendQ n.val) f) := by
  rw [scr_rows c (restQ 7) f, bigSep_fin8_succ (fun i => rowPts c i (restQ 7) f),
    bigSep_congr (fun j _ => row_full_eq c j.succ f), bigSep_sep']
  exact sep_assoc.2

/-- The scratch at what the copies left, the copies' shares of row 0 back, and the other rows' other shares: the scratch
    in full. -/
theorem scr_rejoin (f : Buf (Elt F) ((c : Thread nD τ).loc cc0_scratch0)) :
    iprop(scrPts (F := F) c (restQ 7) f ∗ (bigSep Finset.univ fun n : Fin 7 => rowPts c 0 (sendQ n.val) f)
        ∗ bigSep Finset.univ fun j : Fin 7 => bigSep Finset.univ fun n : Fin 7 => rowPts c j.succ (sendQ n.val) f)
      ⊢ scrPts c fullShare f := by
  rw [scr_rows c fullShare f, bigSep_congr (fun i _ => row_full_eq c i f), bigSep_sep', ← scr_rows c (restQ 7) f,
    bigSep_fin8_succ (fun i => bigSep Finset.univ fun n : Fin 7 => rowPts c i (sendQ n.val) f)]

/-! ## Element by element -/

/-- The rectangle of the kernel's load and store of row 0. -/
abbrev r0 : Rect S8x1x768 := Rect.unit (s := S8x1x768) ![0, 0, 0] S1x1x768.size inb_S8x1x768_S1x1x768_0_0_0
abbrev rAll : Rect S8x1x768 := Rect.unit (s := S8x1x768) ![0, 0, 0] S8x1x768.size inb_S8x1x768_S8x1x768_0_0_0
abbrev rX : Rect S1536x768 := Rect.unit (s := S1536x768) ![0, 0] S1536x768.size inb_S1536x768_S1536x768_0_0
abbrev rO : Rect S1x768 := Rect.unit (s := S1x768) ![0, 0] S1x768.size inb_S1x768_S1x768_0_0

omit [FloatOps F] [Named F] in
/-- Where row `k`'s index `y` sits in the scratch: the rectangle's placement of the 1 × 1 × 768 index matched with `y`. -/
private theorem rowM_emb (k : Fin 8) (y : S1x768.Idx) :
    (rowM k).view.emb y = (rowRect k).emb (Shape.reshapeEquiv squeezes_S1x1x768_S1x768.numel_eq y) := rfl

omit [FloatOps F] [Named F] in
/-- Its first coordinate is `k`. -/
private theorem rowM_emb_val0 (k : Fin 8) (y : S1x768.Idx) : (((rowM k).view.emb y) 0).val = k.val := by
  rw [rowM_emb]
  have h0 : ((Shape.reshapeEquiv squeezes_S1x1x768_S1x768.numel_eq y) 0).val < 1 := (Shape.reshapeEquiv squeezes_S1x1x768_S1x768.numel_eq y 0).isLt
  show k.val + 1 * ((Shape.reshapeEquiv squeezes_S1x1x768_S1x768.numel_eq y) 0).val = k.val
  omega

omit [FloatOps F] [Named F] in
/-- Its last coordinate is `y`'s column: the matched indices have one row-major position, and every other coordinate is 0. -/
private theorem rowM_emb_val2 (k : Fin 8) (y : S1x768.Idx) : (((rowM k).view.emb y) 2).val = (y 1).val := by
  rw [rowM_emb]
  have h := Shape.rowMajor_reshapeEquiv squeezes_S1x1x768_S1x768.numel_eq y
  rw [Shape.rowMajor_val_three, Shape.rowMajor_val_two] at h
  have h0 : ((Shape.reshapeEquiv squeezes_S1x1x768_S1x768.numel_eq y) 0).val < 1 := (Shape.reshapeEquiv squeezes_S1x1x768_S1x768.numel_eq y 0).isLt
  have h1 : ((Shape.reshapeEquiv squeezes_S1x1x768_S1x768.numel_eq y) 1).val < 1 := (Shape.reshapeEquiv squeezes_S1x1x768_S1x768.numel_eq y 1).isLt
  have h2 : (y 0).val < 1 := (y 0).isLt
  change (((Shape.reshapeEquiv squeezes_S1x1x768_S1x768.numel_eq y) 0).val * 1 + ((Shape.reshapeEquiv squeezes_S1x1x768_S1x768.numel_eq y) 1).val) * 768
    + ((Shape.reshapeEquiv squeezes_S1x1x768_S1x768.numel_eq y) 2).val = (y 0).val * 768 + (y 1).val at h
  show 0 + 1 * ((Shape.reshapeEquiv squeezes_S1x1x768_S1x768.numel_eq y) 2).val = (y 1).val
  omega

/-- What the scratch ends holding at row `k`'s index `y`: the column sum, at column `y 1`, of the device `k` places back. -/
private theorem gath_rowM_emb (c' : Dev nD) (k : Fin 8) (y : S1x768.Idx) :
    gath m ρ c' ((rowM k).view.emb y)
      = colsum m ρ (back k c') (ValueIdx.ix3 (0 : Fin 1) (0 : Fin 1) (⟨(y 1).val, (y 1).isLt⟩ : Fin 768)) := by
  have e0 : (⟨(((rowM k).view.emb y) 0).val, (((rowM k).view.emb y) 0).isLt⟩ : Fin 8) = k := Fin.ext (rowM_emb_val0 k y)
  have e2 : (⟨(((rowM k).view.emb y) 2).val, (((rowM k).view.emb y) 2).isLt⟩ : Fin 768) = ⟨(y 1).val, (y 1).isLt⟩ := Fin.ext (rowM_emb_val2 k y)
  show colsum m ρ (back ⟨(((rowM k).view.emb y) 0).val, (((rowM k).view.emb y) 0).isLt⟩ c')
    (ValueIdx.ix3 (0 : Fin 1) (0 : Fin 1) (⟨(((rowM k).view.emb y) 2).val, (((rowM k).view.emb y) 2).isLt⟩ : Fin 768)) = _
  rw [e0, e2]

/-- The store of the column sums into row 0 leaves row 0 of what the scratch ends holding, whatever it held. -/
theorem row0_store_eq (f : Buf (Elt F) ((c : Thread nD τ).loc cc0_scratch0)) :
    ∀ i ∈ (rowM 0).view.set, ((gM.access r0 : View sig .tc _ _ _).write (Elt F) f (colsum m ρ c) Finset.univ) i = gath m ρ c i := by
  intro i hi
  have hi' : i ∈ (gM.access r0 : View sig .tc _ _ _).set := by
    rw [rowM_set] at hi
    exact (View.set_slice_whole cc0_scratch0 r0).symm ▸ hi
  obtain ⟨y, -, rfl⟩ := Finset.mem_map.mp hi'
  rw [View.write_emb_of_mem _ _ (Finset.mem_univ y)]
  have hy0 : (y 0).val < 1 := (y 0).isLt
  have hy1 : (y 1).val < 1 := (y 1).isLt
  have e0 : (⟨(((gM.access r0 : View sig .tc _ _ _).emb y) 0).val, (((gM.access r0 : View sig .tc _ _ _).emb y) 0).isLt⟩ : Fin 8) = 0 :=
    Fin.ext (by show 0 + 1 * (y 0).val = 0; omega)
  have e2 : (⟨(((gM.access r0 : View sig .tc _ _ _).emb y) 2).val, (((gM.access r0 : View sig .tc _ _ _).emb y) 2).isLt⟩ : Fin 768) = ⟨(y 2).val, (y 2).isLt⟩ :=
    Fin.ext (by show 0 + 1 * (y 2).val = (y 2).val; omega)
  have ey : y = ValueIdx.ix3 (0 : Fin 1) (0 : Fin 1) (⟨(y 2).val, (y 2).isLt⟩ : Fin 768) := by
    funext a
    match a with
    | ⟨0, _⟩ => exact Fin.ext (by show (y 0).val = 0; omega)
    | ⟨1, _⟩ => exact Fin.ext (by show (y 1).val = 0; omega)
    | ⟨2, _⟩ => rfl
  show _ = colsum m ρ (back ⟨(((gM.access r0 : View sig .tc _ _ _).emb y) 0).val, (((gM.access r0 : View sig .tc _ _ _).emb y) 0).isLt⟩ c)
    (ValueIdx.ix3 (0 : Fin 1) (0 : Fin 1) (⟨(((gM.access r0 : View sig .tc _ _ _).emb y) 2).val, (((gM.access r0 : View sig .tc _ _ _).emb y) 2).isLt⟩ : Fin 768))
  rw [e0, e2, back_zero, ← ey, cast_eq]

/-- Device `c`'s copy `j` lands row 0 of its scratch in row `j + 1` of its peer's: there, what that scratch ends holding. -/
theorem landed_row (j : Fin 7) (fd : Buf (Elt F) (((sh j c : Dev nD) : Thread nD τ).loc cc0_scratch0)) :
    ∀ i ∈ (rowM j.succ).view.set,
      ((rowM j.succ).view.write (Elt F) fd ((rowM 0).view.read (Elt F) (gath m ρ c)) Finset.univ) i = gath m ρ (sh j c) i := by
  intro i hi
  obtain ⟨y, -, rfl⟩ := Finset.mem_map.mp hi
  rw [View.write_emb_of_mem _ _ (Finset.mem_univ y), View.read_apply, gath_rowM_emb, gath_rowM_emb, back_zero, back_succ_sh,
    cast_cast, cast_eq]

omit [FloatOps F] [Named F] in
theorem read_x (f : (cc0_stg0_0 : Ref sig .tc).ty.Contents (Elt F)) : (xM : Memref sig .tc .vmem S1536x768 .f32).view.readAt (Elt F) rX.toLoadRect f = f :=
  Memref.readAt_unit_zero (Elt F) cc0_stg0_0 (by funext a; fin_cases a <;> rfl) _ f
omit [FloatOps F] [Named F] in
theorem read_all (f : (cc0_scratch0 : Ref sig .tc).ty.Contents (Elt F)) : (gM : Memref sig .tc .vmem S8x1x768 .f32).view.readAt (Elt F) rAll.toLoadRect f = f :=
  Memref.readAt_unit_zero (Elt F) cc0_scratch0 (by funext a; fin_cases a <;> rfl) _ f
omit [FloatOps F] [Named F] in
theorem write_out (f w : (cc0_stg1_0 : Ref sig .tc).ty.Contents (Elt F)) :
    ((oM : Memref sig .tc .vmem S1x768 .f32).access rO : View sig .tc _ _ _).write (Elt F) f w Finset.univ = w :=
  Memref.write_access_unit_zero_univ (Elt F) cc0_stg1_0 (by funext a; fin_cases a <;> rfl) _ f w

end Mem

/-- info: 'Cert.KernelIdeal.Hand.scr_rows' depends on axioms: [propext, Classical.choice, Quot.sound] -/
#guard_msgs in #print axioms scr_rows

/-- info: 'Cert.KernelIdeal.Hand.scr_rejoin' depends on axioms: [propext, Classical.choice, Quot.sound] -/
#guard_msgs in #print axioms scr_rejoin

/-- info: 'Cert.KernelIdeal.Hand.row0_store_eq' depends on axioms: [propext, Classical.choice, Quot.sound] -/
#guard_msgs in #print axioms row0_store_eq

/-- info: 'Cert.KernelIdeal.Hand.landed_row' depends on axioms: [propext, Classical.choice, Quot.sound] -/
#guard_msgs in #print axioms landed_row

end Cert.KernelIdeal.Hand

end
-- ==== Proof.KI.FrontSend.lean ====
/-
  One outgoing copy: the library's rule for an addressed transfer at the protocol's cells, for copy `j` of device `c`.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.KI.Sched
import proofs.«900946_g7700000000000947_dist_mean_ax0_shard0_i_m1536_n768_v7x_i8_f32_1_alg».proof.Proof.KI.Mem

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Copy `j`: row 0 of `c`'s scratch, at the copy's share, into row `j + 1` of the peer's, crediting `c`'s send cell `j` and the
    peer's receive cell `j`; the peer's row comes back to it holding what its scratch ends holding. -/
theorem send_step (c : Dev nD) (j : Fin 7) (κ₁ κ₂ : ℕ) (W : Waits sig Unit)
    (fd : Buf (Elt F) (((sh j c : Dev nD) : Thread nD τ).loc cc0_scratch0))
    {α : Type} (k : PUnit → Prog (TpuEff nD τ sig (Elt F) Λ₀ .tc) α) (Q : α → sProp 𝕄)
    (hsc : (rowM j.succ).view.ref.isScScratch = false) (hsrc : (rowM 0).view.WordExact) (hdst : (rowM j.succ).view.WordExact)
    (hsem : DmaTarget.Typed (nD := nD) (τ := τ) .vmem (.dma (recvS j)) (.remote ((sh j c : Dev nD) : Thread nD τ) (rowM j.succ) (.dma (sendS j)) hsc)) :
    iprop(cellInv ER (Rd m ρ) κ₁ (sendCell c j) ∗ cellInv ER (Rd m ρ) κ₂ (recvCell (sh j c) j)
        ∗ rowPts c 0 (sendQ j.val) (gath m ρ c) ∗ rowPts (sh j c) j.succ fullShare fd
        ∗ owes (c : Thread nD τ) (owedR c (7 - j.val)) W
        ∗ dutyTok ER (sendCell c j) 0 0 ∗ reached ER (sendCell c j) 0
        ∗ dutyTok ER (recvCell (sh j c) j) 0 0 ∗ reached ER (recvCell (sh j c) j) 0)
      ⊢ iprop(((cred (tallyAt (sendCell c j) () N) ∗ owes (c : Thread nD τ) (owedR c (6 - j.val)) W)
              -∗ wp frame (wpE (defs₀ (F := F)) 𝒱₀ c none) Set.univ (k ⟨⟩) Q)
          -∗ wp frame (wpE (defs₀ (F := F)) 𝒱₀ c none) Set.univ
              (.op (.enqueueDma (rowM 0) (.remote ((sh j c : Dev nD) : Thread nD τ) (rowM j.succ) (.dma (sendS j)) hsc) (.dma (recvS j)) hsrc hdst hsem) k) Q) := by
  have hd₁ : (0 : Fin 7) ∈ (Rd (F := F) m ρ).duties (sendCell c j) 0 := by rw [duties_send]; exact Finset.mem_singleton_self _
  have hd₂ : (0 : Fin 7) ∈ (Rd (F := F) m ρ).duties (recvCell (sh j c) j) 0 := by rw [duties_recv]; exact Finset.mem_singleton_self _
  have hN : (rowM j.succ).view.amount (.dma (recvS j)) = N := rfl
  have hpay₁ : ((rowM 0).view.loc (c : Thread nD τ) ↦[(rowM 0).view.set]{sendQ j.val} gath m ρ c : sProp 𝕄)
      ⊢ (Rd (F := F) m ρ).payload (sendCell c j) 0 0 := by
    rw [payload_send]; unfold sendPay rowPts; exact .rfl
  have hpay₂ : ((rowM j.succ).view.loc ((sh j c : Dev nD) : Thread nD τ) ↦[(rowM j.succ).view.set]{fullShare}
        ((rowM j.succ).view.write (Elt F) fd ((rowM 0).view.read (Elt F) (gath m ρ c)) Finset.univ) : sProp 𝕄)
      ⊢ (Rd (F := F) m ρ).payload (recvCell (sh j c) j) 0 0 := by
    rw [payload_recv]; unfold recvPay rowPts
    rw [pointsTo_congr (landed_row m ρ c j fd)]
  unfold rowPts
  exact Rounds.wp_send_pointsTo 𝒱₀ ER (Rd m ρ) (c : Thread nD τ) none (c' := ((sh j c : Dev nD) : Thread nD τ)) (src := rowM 0) (dst := rowM j.succ)
    (q := sendQ j.val) (fs := gath m ρ c) (fd := fd) (r₁ := 0) (r₂ := 0) (d₁ := 0) (d₂ := 0) hd₁ hd₂ () () N hN
    (amount_send m ρ c j 0) (amount_recv m ρ (sh j c) j 0) (owedR c (6 - j.val)) (owedR_step c j) hpay₁ hpay₂

/-- info: 'Cert.KernelIdeal.Hand.send_step' depends on axioms: [propext, Classical.choice, Quot.sound] -/
#guard_msgs in #print axioms send_step

end Cert.KernelIdeal.Hand

end
-- ==== Proof.KI.Front.lean ====
/-
  The first half of one device's body: the seven barrier signals, the column sums stored into row 0, the wait for the
  seven peers, and the seven outgoing copies.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.KI.Sched
import proofs.«900946_g7700000000000947_dist_mean_ax0_shard0_i_m1536_n768_v7x_i8_f32_1_alg».proof.Proof.KI.Mem
import proofs.«900946_g7700000000000947_dist_mean_ax0_shard0_i_m1536_n768_v7x_i8_f32_1_alg».proof.Proof.KI.FrontSend

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The peers the printed program addresses

The program computes each target as `(me + off) % 8` over machine words; over the eight devices that is `sh`. -/

/-- The device the program's signal 1 addresses, computed from its own position, is the peer `0` (offset `0 + 1`). -/
theorem dev1_eq (c : Dev nD) : (⟨k0_dev1 c, k0_dev1_lt c⟩ : Dev nD) = sh 0 c := by revert c; decide +kernel
/-- The device the program's signal 2 addresses, computed from its own position, is the peer `1` (offset `1 + 1`). -/
theorem dev2_eq (c : Dev nD) : (⟨k0_dev2 c, k0_dev2_lt c⟩ : Dev nD) = sh 1 c := by revert c; decide +kernel
/-- The device the program's signal 3 addresses, computed from its own position, is the peer `2` (offset `2 + 1`). -/
theorem dev3_eq (c : Dev nD) : (⟨k0_dev3 c, k0_dev3_lt c⟩ : Dev nD) = sh 2 c := by revert c; decide +kernel
/-- The device the program's signal 4 addresses, computed from its own position, is the peer `3` (offset `3 + 1`). -/
theorem dev4_eq (c : Dev nD) : (⟨k0_dev4 c, k0_dev4_lt c⟩ : Dev nD) = sh 3 c := by revert c; decide +kernel
/-- The device the program's signal 5 addresses, computed from its own position, is the peer `4` (offset `4 + 1`). -/
theorem dev5_eq (c : Dev nD) : (⟨k0_dev5 c, k0_dev5_lt c⟩ : Dev nD) = sh 4 c := by revert c; decide +kernel
/-- The device the program's signal 6 addresses, computed from its own position, is the peer `5` (offset `5 + 1`). -/
theorem dev6_eq (c : Dev nD) : (⟨k0_dev6 c, k0_dev6_lt c⟩ : Dev nD) = sh 5 c := by revert c; decide +kernel
/-- The device the program's signal 7 addresses, computed from its own position, is the peer `6` (offset `6 + 1`). -/
theorem dev7_eq (c : Dev nD) : (⟨k0_dev7 c, k0_dev7_lt c⟩ : Dev nD) = sh 6 c := by revert c; decide +kernel
/-- The device the program's copy 1 addresses, computed from its own position, is the peer `0` (offset `0 + 1`). -/
theorem dev8_eq (c : Dev nD) : (⟨k0_dev8 c, k0_dev8_lt c⟩ : Dev nD) = sh 0 c := by revert c; decide +kernel
/-- The device the program's copy 2 addresses, computed from its own position, is the peer `1` (offset `1 + 1`). -/
theorem dev9_eq (c : Dev nD) : (⟨k0_dev9 c, k0_dev9_lt c⟩ : Dev nD) = sh 1 c := by revert c; decide +kernel
/-- The device the program's copy 3 addresses, computed from its own position, is the peer `2` (offset `2 + 1`). -/
theorem dev10_eq (c : Dev nD) : (⟨k0_dev10 c, k0_dev10_lt c⟩ : Dev nD) = sh 2 c := by revert c; decide +kernel
/-- The device the program's copy 4 addresses, computed from its own position, is the peer `3` (offset `3 + 1`). -/
theorem dev11_eq (c : Dev nD) : (⟨k0_dev11 c, k0_dev11_lt c⟩ : Dev nD) = sh 3 c := by revert c; decide +kernel
/-- The device the program's copy 5 addresses, computed from its own position, is the peer `4` (offset `4 + 1`). -/
theorem dev12_eq (c : Dev nD) : (⟨k0_dev12 c, k0_dev12_lt c⟩ : Dev nD) = sh 4 c := by revert c; decide +kernel
/-- The device the program's copy 6 addresses, computed from its own position, is the peer `5` (offset `5 + 1`). -/
theorem dev13_eq (c : Dev nD) : (⟨k0_dev13 c, k0_dev13_lt c⟩ : Dev nD) = sh 5 c := by revert c; decide +kernel
/-- The device the program's copy 7 addresses, computed from its own position, is the peer `6` (offset `6 + 1`). -/
theorem dev14_eq (c : Dev nD) : (⟨k0_dev14 c, k0_dev14_lt c⟩ : Dev nD) = sh 6 c := by revert c; decide +kernel

attribute [local sl_canon] dev1_eq dev2_eq dev3_eq dev4_eq dev5_eq dev6_eq dev7_eq dev8_eq dev9_eq dev10_eq dev11_eq dev12_eq dev13_eq dev14_eq

/-! ## The pieces of the body's state, restated as the steps take and leave them -/

omit [FloatOps F] [Named F] in
/-- What the signal to the peer `j` hands over is row `neg j + 1` of the signaller's OWN scratch: the peer's peer
    `neg j` is the signaller. -/
theorem barPay_sig (c : Dev nD) (j : Fin 7) : barPay (F := F) (sh j c) (neg j)
    = iprop(∃ f, (rowM (neg j).succ).view.loc (c : Thread nD τ) ↦[(rowM (neg j).succ).view.set]{fullShare} f) := by
  unfold barPay rowPts; rw [sh_neg_sh]

/-- What a device owes at launch, term by term: a row's credit on each peer's receive cell, a unit on each peer's
    barrier cell, the last term the first to be paid. -/
theorem owed_sum (c : Dev nD) : (dats m ρ 0 c).owed t₀.castSucc = 0 + tallyAt (recvCell (sh 6 c) 6) () N + tallyAt (recvCell (sh 5 c) 5) () N + tallyAt (recvCell (sh 4 c) 4) () N + tallyAt (recvCell (sh 3 c) 3) () N + tallyAt (recvCell (sh 2 c) 2) () N + tallyAt (recvCell (sh 1 c) 1) () N + tallyAt (recvCell (sh 0 c) 0) () N + tallyAt (barCell (sh 6 c)) () 1 + tallyAt (barCell (sh 5 c)) () 1 + tallyAt (barCell (sh 4 c)) () 1 + tallyAt (barCell (sh 3 c)) () 1 + tallyAt (barCell (sh 2 c)) () 1 + tallyAt (barCell (sh 1 c)) () 1 + tallyAt (barCell (sh 0 c)) () 1 := rfl

/-- At the body's one point the staging buffer of `x` has just been fetched: it holds the device's block. -/
theorem before_x (c : Dev nD) (d : (cfg0.win 0).block.Idx → Elt F (cfg0.win 0).elt) : (dats m ρ 0 c).before (0 : Fin 2) t₀ d = xstg m ρ c := by
  unfold Dat.before; rw [if_pos (fetch0_0 t₀)]; rfl
/-- The seven peers' rows a barrier wait hands over, one by one. -/
theorem pay_split (c : Dev nD) : (bigSep Finset.univ (fun d : Fin 7 => barPay (F := F) c d))
    ⊢ iprop((∃ f, rowPts (sh 0 c) (0 : Fin 7).succ fullShare f) ∗ (∃ f, rowPts (sh 1 c) (1 : Fin 7).succ fullShare f) ∗ (∃ f, rowPts (sh 2 c) (2 : Fin 7).succ fullShare f) ∗ (∃ f, rowPts (sh 3 c) (3 : Fin 7).succ fullShare f) ∗ (∃ f, rowPts (sh 4 c) (4 : Fin 7).succ fullShare f) ∗ (∃ f, rowPts (sh 5 c) (5 : Fin 7).succ fullShare f) ∗ (∃ f, rowPts (sh 6 c) (6 : Fin 7).succ fullShare f)) := by
  rw [bigSep_fin7]; unfold barPay; exact .rfl
/-- Row 0, just stored, as what the scratch ends holding, cut into what the seven copies read and the rest. -/
theorem row0_shares (c : Dev nD) (w : Buf (Elt F) ((c : Thread nD τ).loc cc0_scratch0))
    (h : ∀ i ∈ (rowM 0).view.set, w i = gath m ρ c i) :
    ((rowM 0).view.loc (c : Thread nD τ) ↦[(rowM 0).view.set]{fullShare} w)
      ⊢ iprop(rowPts c 0 (restQ 7) (gath m ρ c) ∗ rowPts c 0 (sendQ 0) (gath m ρ c) ∗ rowPts c 0 (sendQ 1) (gath m ρ c) ∗ rowPts c 0 (sendQ 2) (gath m ρ c) ∗ rowPts c 0 (sendQ 3) (gath m ρ c) ∗ rowPts c 0 (sendQ 4) (gath m ρ c) ∗ rowPts c 0 (sendQ 5) (gath m ρ c) ∗ rowPts c 0 (sendQ 6) (gath m ρ c)) := by
  rw [pointsTo_congr h]
  have e := (row_full_split (F := F) c 0 (gath m ρ c)).1
  rw [bigSep_fin7] at e
  exact e

/-- The cells' invariants from their 29 members. -/
theorem invs_intro (K : Dev nD × Option (Bool × Fin 7) → ℕ) (c : Dev nD) :
    iprop(cellInv ER (Rd m ρ) (K (c, none)) (barCell c)
      ∗ (cellInv ER (Rd m ρ) (K (c, some (false, 0))) (sendCell c 0) ∗ cellInv ER (Rd m ρ) (K (c, some (false, 1))) (sendCell c 1) ∗ cellInv ER (Rd m ρ) (K (c, some (false, 2))) (sendCell c 2) ∗ cellInv ER (Rd m ρ) (K (c, some (false, 3))) (sendCell c 3) ∗ cellInv ER (Rd m ρ) (K (c, some (false, 4))) (sendCell c 4) ∗ cellInv ER (Rd m ρ) (K (c, some (false, 5))) (sendCell c 5) ∗ cellInv ER (Rd m ρ) (K (c, some (false, 6))) (sendCell c 6))
      ∗ (cellInv ER (Rd m ρ) (K (c, some (true, 0))) (recvCell c 0) ∗ cellInv ER (Rd m ρ) (K (c, some (true, 1))) (recvCell c 1) ∗ cellInv ER (Rd m ρ) (K (c, some (true, 2))) (recvCell c 2) ∗ cellInv ER (Rd m ρ) (K (c, some (true, 3))) (recvCell c 3) ∗ cellInv ER (Rd m ρ) (K (c, some (true, 4))) (recvCell c 4) ∗ cellInv ER (Rd m ρ) (K (c, some (true, 5))) (recvCell c 5) ∗ cellInv ER (Rd m ρ) (K (c, some (true, 6))) (recvCell c 6))
      ∗ (cellInv ER (Rd m ρ) (K (sh 0 c, none)) (barCell (sh 0 c)) ∗ cellInv ER (Rd m ρ) (K (sh 1 c, none)) (barCell (sh 1 c)) ∗ cellInv ER (Rd m ρ) (K (sh 2 c, none)) (barCell (sh 2 c)) ∗ cellInv ER (Rd m ρ) (K (sh 3 c, none)) (barCell (sh 3 c)) ∗ cellInv ER (Rd m ρ) (K (sh 4 c, none)) (barCell (sh 4 c)) ∗ cellInv ER (Rd m ρ) (K (sh 5 c, none)) (barCell (sh 5 c)) ∗ cellInv ER (Rd m ρ) (K (sh 6 c, none)) (barCell (sh 6 c)))
      ∗ (cellInv ER (Rd m ρ) (K (sh 0 c, some (true, 0))) (recvCell (sh 0 c) 0) ∗ cellInv ER (Rd m ρ) (K (sh 1 c, some (true, 1))) (recvCell (sh 1 c) 1) ∗ cellInv ER (Rd m ρ) (K (sh 2 c, some (true, 2))) (recvCell (sh 2 c) 2) ∗ cellInv ER (Rd m ρ) (K (sh 3 c, some (true, 3))) (recvCell (sh 3 c) 3) ∗ cellInv ER (Rd m ρ) (K (sh 4 c, some (true, 4))) (recvCell (sh 4 c) 4) ∗ cellInv ER (Rd m ρ) (K (sh 5 c, some (true, 5))) (recvCell (sh 5 c) 5) ∗ cellInv ER (Rd m ρ) (K (sh 6 c, some (true, 6))) (recvCell (sh 6 c) 6)))
      ⊢ invs m ρ K c := by
  unfold invs; simp only [bigSep_fin7]; exact .rfl

/-- The state between the copies' starts and the waits for the incoming ones, from its members. -/
theorem mid_intro (K : Dev nD × Option (Bool × Fin 7) → ℕ) (c : Dev nD) (W : Waits sig Unit)
    (g1 : Buf (Elt F) ((c : Thread nD τ).loc cc0_stg1_0)) :
    iprop(invs m ρ K c ∗ levAts L lv ∗ owes (c : Thread nD τ) (owedR c 0) W
        ∗ (atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0)
        ∗ (cred (tallyAt (sendCell c 0) () N) ∗ cred (tallyAt (sendCell c 1) () N) ∗ cred (tallyAt (sendCell c 2) () N) ∗ cred (tallyAt (sendCell c 3) () N) ∗ cred (tallyAt (sendCell c 4) () N) ∗ cred (tallyAt (sendCell c 5) () N) ∗ cred (tallyAt (sendCell c 6) () N))
        ∗ (atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0)
        ∗ (cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N))
        ∗ rowPts c 0 (restQ 7) (gath m ρ c) ∗ xPts m ρ c ∗ (((c : Thread nD τ).loc cc0_stg1_0) ↦{fullShare} g1))
      ⊢ midSt m ρ K c := by
  unfold midSt
  simp only [bigSep_fin7]
  iintro ⟨#Hi, #Hl, HO, HA, HB, HC, HD, Hr, Hx, Ho⟩
  isplitr; · iexact Hi
  isplitr; · iexact Hl
  isplitl [HO]; · iexists W; iexact HO
  isplitl [HA]; · iexact HA
  isplitl [HB]; · iexact HB
  isplitl [HC]; · iexact HC
  isplitl [HD]; · iexact HD
  isplitl [Hr]; · iexact Hr
  isplitl [Hx]; · iexact Hx
  iexists g1; iexact Ho

/-- The per-copy step at a destination device given by an equation: the printed program names copy `j`'s target
    through its own arithmetic, equal to `sh j c`. -/
theorem send_step_at (c : Dev nD) (j : Fin 7) (d : Dev nD) (hd : d = sh j c) (κ₁ κ₂ : ℕ) (W : Waits sig Unit)
    (fd : Buf (Elt F) (((sh j c : Dev nD) : Thread nD τ).loc cc0_scratch0))
    {α : Type} (k : PUnit → Prog (TpuEff nD τ sig (Elt F) Λ₀ .tc) α) (Q : α → sProp 𝕄)
    (hsc : (rowM j.succ).view.ref.isScScratch = false) (hsrc : (rowM 0).view.WordExact) (hdst : (rowM j.succ).view.WordExact)
    (hsem : DmaTarget.Typed (nD := nD) (τ := τ) .vmem (.dma (recvS j)) (.remote ((d : Dev nD) : Thread nD τ) (rowM j.succ) (.dma (sendS j)) hsc)) :
    iprop(cellInv ER (Rd m ρ) κ₁ (sendCell c j) ∗ cellInv ER (Rd m ρ) κ₂ (recvCell (sh j c) j)
        ∗ rowPts c 0 (sendQ j.val) (gath m ρ c) ∗ rowPts (sh j c) j.succ fullShare fd
        ∗ owes (c : Thread nD τ) (owedR c (7 - j.val)) W
        ∗ dutyTok ER (sendCell c j) 0 0 ∗ reached ER (sendCell c j) 0
        ∗ dutyTok ER (recvCell (sh j c) j) 0 0 ∗ reached ER (recvCell (sh j c) j) 0)
      ⊢ iprop(((cred (tallyAt (sendCell c j) () N) ∗ owes (c : Thread nD τ) (owedR c (6 - j.val)) W)
              -∗ wp frame (wpE (defs₀ (F := F)) 𝒱₀ c none) Set.univ (k ⟨⟩) Q)
          -∗ wp frame (wpE (defs₀ (F := F)) 𝒱₀ c none) Set.univ
              (.op (.enqueueDma (rowM 0) (.remote ((d : Dev nD) : Thread nD τ) (rowM j.succ) (.dma (sendS j)) hsc) (.dma (recvS j)) hsrc hdst hsem) k) Q) := by
  subst hd
  exact send_step m ρ c j κ₁ κ₂ W fd k Q hsc hsrc hdst hsem

/-- The block of `x` in its staging buffer, as the load leaves it spelt. -/
theorem x_conv (c : Dev nD) :
    ((xM : Memref sig .tc .vmem S1536x768 .f32).view.loc (c : Thread nD τ) ↦{fullShare} xstg m ρ c) ⊢ xPts m ρ c := by
  unfold xPts; exact .rfl

/-! ## The first half -/

attribute [local sl_rounds] duties_bar duties_send duties_recv amount_bar amount_send amount_recv expect_bar expect_send expect_recv payload_bar barPay_sig payload_send payload_recv

/-- From the body's precondition, through the printed parts 1 to 8, to the state between the copies' starts and the
    waits for the incoming ones. -/
theorem front_half (K : Dev nD × Option (Bool × Fin 7) → ℕ) (c : Dev nD) (Kt : PUnit → sProp 𝕄) :
    iprop(bodyPre m ρ K c
        ∗ (∀ v133, ∀ v154, ∀ v175, ∀ v196, ∀ v217, ∀ v238, midSt m ρ K c
            -∗ wp frame (wpE (defs₀ (F := F)) 𝒱₀ c none) Set.univ (backProg (F := F) v133 v154 v175 v196 v217 v238) Kt))
      ⊢ wp frame (wpE (defs₀ (F := F)) 𝒱₀ c none) Set.univ (cc0_body (F := F) (Memref.whole cc0_stg0_0) (Memref.isWhole_whole _) (Memref.whole cc0_stg1_0) (Memref.isWhole_whole _) (Memref.whole cc0_scratch0) (Memref.isWhole_whole _) cc0_scratch1 cc0_scratch2) Kt := by
  -- at its barrier wait the device owes receive credit only
  have hmw : (levAts L lv : sProp 𝕄) ⊢ MayWait (c : Thread nD τ) (.reg barS) () (0 + tallyAt (recvCell (sh 6 c) 6) () N + tallyAt (recvCell (sh 5 c) 5) () N + tallyAt (recvCell (sh 4 c) 4) () N + tallyAt (recvCell (sh 3 c) 3) () N + tallyAt (recvCell (sh 2 c) 2) () N + tallyAt (recvCell (sh 1 c) 1) () N + tallyAt (recvCell (sh 0 c) 0) () N) := mayWait_bar c
  -- the printed parts 1 to 8 as one sequence of operations, each target device as a peer
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  simp only [dev1_eq, dev2_eq, dev3_eq, dev4_eq, dev5_eq, dev6_eq, dev7_eq, dev8_eq, dev9_eq, dev10_eq, dev11_eq, dev12_eq, dev13_eq, dev14_eq]
  -- the precondition member by member: the scratch as row 0 and the seven rows the signals give up, in that order
  unfold bodyPre ghost invs reacheds
  simp only [scr_rows, bigSep_fin8_neg, bigSep_fin7, Dat.owesAt, owed_sum, before_x]
  unfold rowPts
  iintro ⟨⟨⟨⟨⟨#Ib, ⟨#Is0, #Is1, #Is2, #Is3, #Is4, #Is5, #Is6⟩, ⟨#Ir0, #Ir1, #Ir2, #Ir3, #Ir4, #Ir5, #Ir6⟩, ⟨#Ipb0, #Ipb1, #Ipb2, #Ipb3, #Ipb4, #Ipb5, #Ipb6⟩, #Ipr0, #Ipr1, #Ipr2, #Ipr3, #Ipr4, #Ipr5, #Ipr6⟩, ⟨⟨#Rb0, #Rb1, #Rb2, #Rb3, #Rb4, #Rb5, #Rb6⟩, ⟨#Rr0, #Rr1, #Rr2, #Rr3, #Rr4, #Rr5, #Rr6⟩, #Rs0, #Rs1, #Rs2, #Rs3, #Rs4, #Rs5, #Rs6⟩, Hatb, ⟨Has0, Has1, Has2, Has3, Has4, Has5, Has6⟩, ⟨Har0, Har1, Har2, Har3, Har4, Har5, Har6⟩, ⟨Tb0, Tb1, Tb2, Tb3, Tb4, Tb5, Tb6⟩, ⟨Tr0, Tr1, Tr2, Tr3, Tr4, Tr5, Tr6⟩, Ts0, Ts1, Ts2, Ts3, Ts4, Ts5, Ts6⟩, Hcb, ⟨Hcr0, Hcr1, Hcr2, Hcr3, Hcr4, Hcr5, Hcr6⟩, #Hlev, ⟨%f0, Hrow0, Hrw0, Hrw1, Hrw2, Hrw3, Hrw4, Hrw5, Hrw6⟩⟩, ⟨%W0, %hW0, HO⟩, ⟨%dx, %fx, %hfx, Hx⟩, ⟨%dox, %fo, %hfo, Ho⟩⟩, Hk⟩
  subst hfx
  irevert Hrow0; iintro Hrow0
  -- the seven signals (signal `j` pays duty `neg j` of the peer's barrier cell with row `neg j + 1`), the load of `x`,
  -- the load and the store of row 0, the wait for the seven peers' units
  sl_exec
  sl_step
  sl_exec
  -- row 0 now holds the column sums: on row 0, what the scratch ends holding
  have hw : ∀ i ∈ (rowM 0).view.set, front_half.sl.Hrow0_w1 m ρ c f0 i = gath m ρ c i := by
    intro i hi
    have e : front_half.sl.Hrow0_w1 m ρ c f0 = (gM.access r0 : View sig .tc _ _ _).write (Elt F) f0 (colsum m ρ c) Finset.univ := by
      delta front_half.sl.Hrow0_w1; unfold colsum
      exact congrArg (fun v => View.write (Elt F) (gM.access r0) f0 (k0_pay2 (k0_pay1 v)) Finset.univ) (read_x (xstg m ρ c))
    rw [e]; exact row0_store_eq m ρ c f0 i hi
  -- the wait's payloads: row `d + 1` of each peer `d`; row 0 cut into the seven copies' shares and the rest
  icases (pay_split (F := F) c) $$ Hatb_pay1 with ⟨⟨%g0, P0⟩, ⟨%g1, P1⟩, ⟨%g2, P2⟩, ⟨%g3, P3⟩, ⟨%g4, P4⟩, ⟨%g5, P5⟩, ⟨%g6, P6⟩⟩
  icases (row0_shares m ρ c _ hw) $$ Hrow0 with ⟨Hrest, S0, S1, S2, S3, S4, S5, S6⟩
  -- copy `j`: row 0 at share `sendQ j` into row `j + 1` of the peer `j`, paying that peer's receive cell
  iapply (send_step_at m ρ c 0 _ (dev8_eq c) _ _ _ g0 _ _ _ _ _ _) $$ [S0 P0 HO Ts0 Tr0]
  · isplitr; · iexact Is0
    isplitr; · iexact Ipr0
    isplitl [S0]; · iexact S0
    isplitl [P0]; · iexact P0
    isplitl [HO]; · iexact HO
    isplitl [Ts0]; · iexact Ts0
    isplitr; · iexact Rs0
    isplitl [Tr0]; · iexact Tr0
    iexact Rr0
  iintro ⟨Hcs0, HO⟩
  iapply (send_step_at m ρ c 1 _ (dev9_eq c) _ _ _ g1 _ _ _ _ _ _) $$ [S1 P1 HO Ts1 Tr1]
  · isplitr; · iexact Is1
    isplitr; · iexact Ipr1
    isplitl [S1]; · iexact S1
    isplitl [P1]; · iexact P1
    isplitl [HO]; · iexact HO
    isplitl [Ts1]; · iexact Ts1
    isplitr; · iexact Rs1
    isplitl [Tr1]; · iexact Tr1
    iexact Rr1
  iintro ⟨Hcs1, HO⟩
  iapply (send_step_at m ρ c 2 _ (dev10_eq c) _ _ _ g2 _ _ _ _ _ _) $$ [S2 P2 HO Ts2 Tr2]
  · isplitr; · iexact Is2
    isplitr; · iexact Ipr2
    isplitl [S2]; · iexact S2
    isplitl [P2]; · iexact P2
    isplitl [HO]; · iexact HO
    isplitl [Ts2]; · iexact Ts2
    isplitr; · iexact Rs2
    isplitl [Tr2]; · iexact Tr2
    iexact Rr2
  iintro ⟨Hcs2, HO⟩
  iapply (send_step_at m ρ c 3 _ (dev11_eq c) _ _ _ g3 _ _ _ _ _ _) $$ [S3 P3 HO Ts3 Tr3]
  · isplitr; · iexact Is3
    isplitr; · iexact Ipr3
    isplitl [S3]; · iexact S3
    isplitl [P3]; · iexact P3
    isplitl [HO]; · iexact HO
    isplitl [Ts3]; · iexact Ts3
    isplitr; · iexact Rs3
    isplitl [Tr3]; · iexact Tr3
    iexact Rr3
  iintro ⟨Hcs3, HO⟩
  iapply (send_step_at m ρ c 4 _ (dev12_eq c) _ _ _ g4 _ _ _ _ _ _) $$ [S4 P4 HO Ts4 Tr4]
  · isplitr; · iexact Is4
    isplitr; · iexact Ipr4
    isplitl [S4]; · iexact S4
    isplitl [P4]; · iexact P4
    isplitl [HO]; · iexact HO
    isplitl [Ts4]; · iexact Ts4
    isplitr; · iexact Rs4
    isplitl [Tr4]; · iexact Tr4
    iexact Rr4
  iintro ⟨Hcs4, HO⟩
  iapply (send_step_at m ρ c 5 _ (dev13_eq c) _ _ _ g5 _ _ _ _ _ _) $$ [S5 P5 HO Ts5 Tr5]
  · isplitr; · iexact Is5
    isplitr; · iexact Ipr5
    isplitl [S5]; · iexact S5
    isplitl [P5]; · iexact P5
    isplitl [HO]; · iexact HO
    isplitl [Ts5]; · iexact Ts5
    isplitr; · iexact Rs5
    isplitl [Tr5]; · iexact Tr5
    iexact Rr5
  iintro ⟨Hcs5, HO⟩
  iapply (send_step_at m ρ c 6 _ (dev14_eq c) _ _ _ g6 _ _ _ _ _ _) $$ [S6 P6 HO Ts6 Tr6]
  · isplitr; · iexact Is6
    isplitr; · iexact Ipr6
    isplitl [S6]; · iexact S6
    isplitl [P6]; · iexact P6
    isplitl [HO]; · iexact HO
    isplitl [Ts6]; · iexact Ts6
    isplitr; · iexact Rs6
    isplitl [Tr6]; · iexact Tr6
    iexact Rr6
  iintro ⟨Hcs6, HO⟩
  -- nothing more is owed: the state between the copies' starts and the waits for the incoming ones
  icases (x_conv m ρ c) $$ Hx with Hx
  iapply Hk $$ [HO Has0 Has1 Has2 Has3 Has4 Has5 Has6 Hcs0 Hcs1 Hcs2 Hcs3 Hcs4 Hcs5 Hcs6 Har0 Har1 Har2 Har3 Har4 Har5 Har6 Hcr0 Hcr1 Hcr2 Hcr3 Hcr4 Hcr5 Hcr6 Hrest Hx Ho]
  iapply (mid_intro m ρ K c _ fo)
  isplitr
  · iapply (invs_intro m ρ K c)
    isplitr; · iexact Ib
    isplitr
    · isplitr; · iexact Is0
      isplitr; · iexact Is1
      isplitr; · iexact Is2
      isplitr; · iexact Is3
      isplitr; · iexact Is4
      isplitr; · iexact Is5
      iexact Is6
    isplitr
    · isplitr; · iexact Ir0
      isplitr; · iexact Ir1
      isplitr; · iexact Ir2
      isplitr; · iexact Ir3
      isplitr; · iexact Ir4
      isplitr; · iexact Ir5
      iexact Ir6
    isplitr
    · isplitr; · iexact Ipb0
      isplitr; · iexact Ipb1
      isplitr; · iexact Ipb2
      isplitr; · iexact Ipb3
      isplitr; · iexact Ipb4
      isplitr; · iexact Ipb5
      iexact Ipb6
    isplitr; · iexact Ipr0
    isplitr; · iexact Ipr1
    isplitr; · iexact Ipr2
    isplitr; · iexact Ipr3
    isplitr; · iexact Ipr4
    isplitr; · iexact Ipr5
    iexact Ipr6
  isplitr; · iexact Hlev
  isplitl [HO]; · iexact HO
  isplitl [Has0 Has1 Has2 Has3 Has4 Has5 Has6]
  · isplitl [Has0]; · iexact Has0
    isplitl [Has1]; · iexact Has1
    isplitl [Has2]; · iexact Has2
    isplitl [Has3]; · iexact Has3
    isplitl [Has4]; · iexact Has4
    isplitl [Has5]; · iexact Has5
    iexact Has6
  isplitl [Hcs0 Hcs1 Hcs2 Hcs3 Hcs4 Hcs5 Hcs6]
  · isplitl [Hcs0]; · iexact Hcs0
    isplitl [Hcs1]; · iexact Hcs1
    isplitl [Hcs2]; · iexact Hcs2
    isplitl [Hcs3]; · iexact Hcs3
    isplitl [Hcs4]; · iexact Hcs4
    isplitl [Hcs5]; · iexact Hcs5
    iexact Hcs6
  isplitl [Har0 Har1 Har2 Har3 Har4 Har5 Har6]
  · isplitl [Har0]; · iexact Har0
    isplitl [Har1]; · iexact Har1
    isplitl [Har2]; · iexact Har2
    isplitl [Har3]; · iexact Har3
    isplitl [Har4]; · iexact Har4
    isplitl [Har5]; · iexact Har5
    iexact Har6
  isplitl [Hcr0 Hcr1 Hcr2 Hcr3 Hcr4 Hcr5 Hcr6]
  · isplitl [Hcr0]; · iexact Hcr0
    isplitl [Hcr1]; · iexact Hcr1
    isplitl [Hcr2]; · iexact Hcr2
    isplitl [Hcr3]; · iexact Hcr3
    isplitl [Hcr4]; · iexact Hcr4
    isplitl [Hcr5]; · iexact Hcr5
    iexact Hcr6
  isplitl [Hrest]; · iexact Hrest
  isplitl [Hx]; · iexact Hx
  iexact Ho

/-- info: 'Cert.KernelIdeal.Hand.front_half' depends on axioms: [propext, Classical.choice, Quot.sound] -/
#guard_msgs in #print axioms front_half

end Cert.KernelIdeal.Hand

end
-- ==== Proof.KI.Back.lean ====
/-
  The second half of one device's body: the waits for the seven incoming copies, the eight rows summed, scaled and
  stored, the waits for the seven outgoing copies, and the fourteen cells closed.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.KI.Sched
import proofs.«900946_g7700000000000947_dist_mean_ax0_shard0_i_m1536_n768_v7x_i8_f32_1_alg».proof.Proof.KI.Mem

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The schedule's tables of the send and receive cells, as the stepping of the waits reads them -/
attribute [local sl_rounds] duties_send duties_recv amount_send amount_recv expect_send expect_recv payload_send payload_recv

/-- Row 0 at what the copies left of it and the seven landed rows: the whole scratch at that share (spelt through its
    memref's view), and the landed rows' other shares. -/
private theorem rows_join' (c : Dev nD) :
    iprop(rowPts c 0 (restQ 7) (gath m ρ c) ∗ recvPay m ρ c 0 ∗ recvPay m ρ c 1 ∗ recvPay m ρ c 2 ∗ recvPay m ρ c 3
        ∗ recvPay m ρ c 4 ∗ recvPay m ρ c 5 ∗ recvPay m ρ c 6)
      ⊢ iprop(((gM.view.loc (c : Thread nD τ)) ↦{restQ 7} gath m ρ c)
        ∗ bigSep Finset.univ fun j : Fin 7 => bigSep Finset.univ fun n : Fin 7 => rowPts c j.succ (sendQ n.val) (gath m ρ c)) := by
  have h := rows_join_rest (F := F) c (gath m ρ c)
  rw [bigSep_fin7 (fun j : Fin 7 => rowPts c j.succ fullShare (gath m ρ c))] at h
  exact h

omit [FloatOps F] [Named F] in
/-- The result's staging buffer, spelt through its memref's view. -/
private theorem out_view (c : Dev nD) (f : Buf (Elt F) ((c : Thread nD τ).loc cc0_stg1_0)) :
    ((((c : Thread nD τ).loc cc0_stg1_0) ↦{fullShare} f : sProp 𝕄)) ⊢ ((oM.view.loc (c : Thread nD τ)) ↦{fullShare} f) := BIBase.Entails.rfl

/-- The scratch at what the copies left, the seven copies' shares of row 0 back, and the landed rows' other shares: the
    scratch in full. -/
private theorem scr_rejoin' (c : Dev nD) :
    iprop(((gM.view.loc (c : Thread nD τ)) ↦{restQ 7} gath m ρ c)
        ∗ (sendPay m ρ c 0 ∗ sendPay m ρ c 1 ∗ sendPay m ρ c 2 ∗ sendPay m ρ c 3 ∗ sendPay m ρ c 4 ∗ sendPay m ρ c 5 ∗ sendPay m ρ c 6)
        ∗ bigSep Finset.univ fun j : Fin 7 => bigSep Finset.univ fun n : Fin 7 => rowPts c j.succ (sendQ n.val) (gath m ρ c))
      ⊢ scrPts c fullShare (gath m ρ c) := by
  have h := scr_rejoin (F := F) c (gath m ρ c)
  rw [bigSep_fin7 (fun n : Fin 7 => rowPts c 0 (sendQ n.val) (gath m ρ c))] at h
  exact h

/-- The device's block of `x`, untouched, as the body's postcondition states a staging buffer. -/
private theorem x_done (c : Dev nD) : xPts m ρ c ⊢ stg c cc0_stg0_0 (xstg m ρ c) := by
  unfold xPts
  iintro H
  iexists _
  isplitr; · ipureintro; rfl
  iexact H

/-- The store of the eight rows' scaled sum over the whole result buffer leaves exactly that: the kernel's result. -/
private theorem out_done (c : Dev nD) (g1 : Buf (Elt F) ((c : Thread nD τ).loc cc0_stg1_0)) :
    ((oM.view.loc (c : Thread nD τ)) ↦{fullShare}
        oM.view.writes (Elt F) g1 [⟨rO, k0_pay3 (gM.view.readAt (Elt F) rAll.toLoadRect (gath m ρ c))⟩])
      ⊢ stg c cc0_stg1_0 (outAt m ρ c) := by
  have h : oM.view.writes (Elt F) g1 [⟨rO, k0_pay3 (gM.view.readAt (Elt F) rAll.toLoadRect (gath m ρ c))⟩] = outAt m ρ c := by
    rw [View.writes_singleton, read_all]
    exact write_out _ _
  rw [h]
  iintro H
  iexists _
  isplitr; · ipureintro; rfl
  iexact H

/-- Owing nothing, whatever waits were recorded, is what the body's postcondition asks after the point. -/
private theorem owes_done (c : Dev nD) (W : Waits sig Unit) :
    owes (c : Thread nD τ) 0 W ⊢ (dats m ρ 0 c).owesAt () t₀.succ := by
  iintro H
  iexists W
  isplitr; · ipureintro; exact fun a _ => Or.inl (Set.mem_univ a)
  iexact H

/-- From the state after the copies' starts, through the printed parts 9 to 12 and the last wait, to the body's
    postcondition. -/
theorem back_half (K : Dev nD × Option (Bool × Fin 7) → ℕ) (c : Dev nD) (Kt : PUnit → sProp 𝕄) (v133 v154 v175 v196 v217 v238 : BitVec 32) :
    iprop(midSt m ρ K c ∗ (bodyPost m ρ c -∗ Kt ⟨⟩))
      ⊢ wp frame (wpE (defs₀ (F := F)) 𝒱₀ c none) Set.univ (backProg (F := F) v133 v154 v175 v196 v217 v238) Kt := by
  unfold midSt invs backProg
  simp only [bigSep_fin7]
  iintro ⟨⟨⟨#HIb, ⟨#HIs0, #HIs1, #HIs2, #HIs3, #HIs4, #HIs5, #HIs6⟩, ⟨#HIr0, #HIr1, #HIr2, #HIr3, #HIr4, #HIr5, #HIr6⟩, #HIpb, #HIpr⟩, Hlev, ⟨%W, HO⟩, ⟨Has0, Has1, Has2, Has3, Has4, Has5, Has6⟩, ⟨Hcs0, Hcs1, Hcs2, Hcs3, Hcs4, Hcs5, Hcs6⟩, ⟨Har0, Har1, Har2, Har3, Har4, Har5, Har6⟩, ⟨Hcr0, Hcr1, Hcr2, Hcr3, Hcr4, Hcr5, Hcr6⟩, Hrow0, Hx, ⟨%g1, Hg1⟩⟩, Hk⟩
  sl_rw [k0_part9_eq_skeleton, k0_part10_eq_skeleton, k0_part11_eq_skeleton, k0_part12_eq_skeleton]
  sl_unfold [k0_part9_skel, k0_part10_skel, k0_part11_skel, k0_part12_skel]
  -- the seven waits for the incoming copies
  set_option sl_exec.maxSteps 7 in sl_exec
  -- the rows joined into the whole scratch
  ihave Hj := (rows_join' m ρ c) $$ [Hrow0 Har0_pay1 Har1_pay1 Har2_pay1 Har3_pay1 Har4_pay1 Har5_pay1 Har6_pay1]
  ·
    isplitl [Hrow0]; · iexact Hrow0
    isplitl [Har0_pay1]; · iexact Har0_pay1
    isplitl [Har1_pay1]; · iexact Har1_pay1
    isplitl [Har2_pay1]; · iexact Har2_pay1
    isplitl [Har3_pay1]; · iexact Har3_pay1
    isplitl [Har4_pay1]; · iexact Har4_pay1
    isplitl [Har5_pay1]; · iexact Har5_pay1
    iexact Har6_pay1
  icases Hj with ⟨Hscr, Hrest⟩
  ihave Hout := (out_view c g1) $$ [Hg1]
  · iexact Hg1
  -- the load of the eight rows, the result stored, the seven waits for the outgoing copies
  sl_exec
  -- the fourteen cells closed: nothing lands on them after round 0
  imod (cell_close ER (Rd m ρ) (Set.mem_univ _) (fun h => h) (R := 1) (duties_later m ρ _)) $$ [Has0] with Hzs0
  · isplitr; · iexact HIs0
    iexact Has0
  imod (cell_close ER (Rd m ρ) (Set.mem_univ _) (fun h => h) (R := 1) (duties_later m ρ _)) $$ [Has1] with Hzs1
  · isplitr; · iexact HIs1
    iexact Has1
  imod (cell_close ER (Rd m ρ) (Set.mem_univ _) (fun h => h) (R := 1) (duties_later m ρ _)) $$ [Has2] with Hzs2
  · isplitr; · iexact HIs2
    iexact Has2
  imod (cell_close ER (Rd m ρ) (Set.mem_univ _) (fun h => h) (R := 1) (duties_later m ρ _)) $$ [Has3] with Hzs3
  · isplitr; · iexact HIs3
    iexact Has3
  imod (cell_close ER (Rd m ρ) (Set.mem_univ _) (fun h => h) (R := 1) (duties_later m ρ _)) $$ [Has4] with Hzs4
  · isplitr; · iexact HIs4
    iexact Has4
  imod (cell_close ER (Rd m ρ) (Set.mem_univ _) (fun h => h) (R := 1) (duties_later m ρ _)) $$ [Has5] with Hzs5
  · isplitr; · iexact HIs5
    iexact Has5
  imod (cell_close ER (Rd m ρ) (Set.mem_univ _) (fun h => h) (R := 1) (duties_later m ρ _)) $$ [Has6] with Hzs6
  · isplitr; · iexact HIs6
    iexact Has6
  imod (cell_close ER (Rd m ρ) (Set.mem_univ _) (fun h => h) (R := 1) (duties_later m ρ _)) $$ [Har0] with Hzr0
  · isplitr; · iexact HIr0
    iexact Har0
  imod (cell_close ER (Rd m ρ) (Set.mem_univ _) (fun h => h) (R := 1) (duties_later m ρ _)) $$ [Har1] with Hzr1
  · isplitr; · iexact HIr1
    iexact Har1
  imod (cell_close ER (Rd m ρ) (Set.mem_univ _) (fun h => h) (R := 1) (duties_later m ρ _)) $$ [Har2] with Hzr2
  · isplitr; · iexact HIr2
    iexact Har2
  imod (cell_close ER (Rd m ρ) (Set.mem_univ _) (fun h => h) (R := 1) (duties_later m ρ _)) $$ [Har3] with Hzr3
  · isplitr; · iexact HIr3
    iexact Har3
  imod (cell_close ER (Rd m ρ) (Set.mem_univ _) (fun h => h) (R := 1) (duties_later m ρ _)) $$ [Har4] with Hzr4
  · isplitr; · iexact HIr4
    iexact Har4
  imod (cell_close ER (Rd m ρ) (Set.mem_univ _) (fun h => h) (R := 1) (duties_later m ρ _)) $$ [Har5] with Hzr5
  · isplitr; · iexact HIr5
    iexact Har5
  imod (cell_close ER (Rd m ρ) (Set.mem_univ _) (fun h => h) (R := 1) (duties_later m ρ _)) $$ [Har6] with Hzr6
  · isplitr; · iexact HIr6
    iexact Har6
  -- the copies' shares of row 0 back: the scratch in full
  ihave Hfull := (scr_rejoin' m ρ c) $$ [Hscr Has0_pay1 Has1_pay1 Has2_pay1 Has3_pay1 Has4_pay1 Has5_pay1 Has6_pay1 Hrest]
  · isplitl [Hscr]; · iexact Hscr
    isplitl [Has0_pay1 Has1_pay1 Has2_pay1 Has3_pay1 Has4_pay1 Has5_pay1 Has6_pay1]
    ·
      isplitl [Has0_pay1]; · iexact Has0_pay1
      isplitl [Has1_pay1]; · iexact Has1_pay1
      isplitl [Has2_pay1]; · iexact Has2_pay1
      isplitl [Has3_pay1]; · iexact Has3_pay1
      isplitl [Has4_pay1]; · iexact Has4_pay1
      isplitl [Has5_pay1]; · iexact Has5_pay1
      iexact Has6_pay1
    iexact Hrest
  ihave Hx' := (x_done m ρ c) $$ [Hx]
  · iexact Hx
  ihave Hout' := (out_done m ρ c g1) $$ [Hout]
  · iexact Hout
  sl_step
  iapply Hk
  unfold bodyPost Φ₁
  isplitl [Hfull Hzs0 Hzs1 Hzs2 Hzs3 Hzs4 Hzs5 Hzs6 Hzr0 Hzr1 Hzr2 Hzr3 Hzr4 Hzr5 Hzr6]
  · isplitl [Hfull]; · iexact Hfull
    isplitl [Hzs0 Hzs1 Hzs2 Hzs3 Hzs4 Hzs5 Hzs6]
    · irw [bigSep_fin7]
      isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      iexact Hzs6
    · irw [bigSep_fin7]
      isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      iexact Hzr6
  isplitl [HO]
  · iapply (owes_done m ρ c _)
    iexact HO
  isplitl [Hx']; · iexact Hx'
  iexact Hout'

/-- info: 'Cert.KernelIdeal.Hand.back_half' depends on axioms: [propext, Classical.choice, Quot.sound] -/
#guard_msgs in #print axioms back_half

end Cert.KernelIdeal.Hand

end
-- ==== Proof.KI.Body.lean ====
/-
  One device's body, from its precondition to its postcondition: the two halves joined.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.KI.Front
import proofs.«900946_g7700000000000947_dist_mean_ax0_shard0_i_m1536_n768_v7x_i8_f32_1_alg».proof.Proof.KI.Back

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem sound_body (K : Dev nD × Option (Bool × Fin 7) → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (F := F) (Memref.whole cc0_stg0_0) (Memref.isWhole_whole _) (Memref.whole cc0_stg1_0) (Memref.isWhole_whole _) (Memref.whole cc0_scratch0) (Memref.isWhole_whole _) cc0_scratch1 cc0_scratch2) Kt := by
  iintro ⟨Hpre, Hk⟩
  iapply (front_half m ρ K c Kt)
  isplitl [Hpre]; · iexact Hpre
  iintro %v133 %v154 %v175 %v196 %v217 %v238 Hmid
  iapply (back_half m ρ K c Kt v133 v154 v175 v196 v217 v238)
  isplitl [Hmid]; · iexact Hmid
  iexact Hk

end Cert.KernelIdeal.Hand

end
-- ==== Proof.KI.Final.lean ====
/-
  The arrays after the run: `x` as it was, the result array holding the device's result.
-/
import proofs.«900946_g7700000000000947_dist_mean_ax0_shard0_i_m1536_n768_v7x_i8_f32_1_alg».proof.Proof.KI.Defs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The `x` array after the pipeline's one point holds what it held: an input window's array is never written. -/
theorem arrAt_x (c : Dev nD) : (dats (F := F) m ρ 0 c).arrAt (0 : Fin 2) cfg0.N = m ((c : Thread nD τ).loc main_arg0) := by
  exact (dats (F := F) m ρ 0 c).arrAt_in (0 : Fin 2) rfl _

/-- The result array after the pipeline's one point holds what the body left in the result's staging buffer. -/
theorem arrAt_out (c : Dev nD) : (dats (F := F) m ρ 0 c).arrAt (1 : Fin 2) cfg0.N = outAt m ρ c := by
  -- the pipeline has one point: the array after it is the array after the write-back at that point
  have hN : cfg0.N = t₀.val + 1 := cfg0_N
  refine (congrArg ((dats (F := F) m ρ 0 c).arrAt (1 : Fin 2)) hN).trans ?_
  rw [(dats (F := F) m ρ 0 c).arrAt_succ (1 : Fin 2) t₀, flush0_1 t₀, if_pos rfl]
  -- the block written back is the whole array (block index 0, the array's own sizes), written everywhere
  exact Memref.write_access_unit_zero_univ (Elt F) main_v1 (funext fun a => Nat.zero_mul _) _ _ _

/-- info: 'Cert.KernelIdeal.Hand.arrAt_x' depends on axioms: [propext, Classical.choice, Quot.sound] -/
#guard_msgs in #print axioms arrAt_x

/-- info: 'Cert.KernelIdeal.Hand.arrAt_out' depends on axioms: [propext, Classical.choice, Quot.sound] -/
#guard_msgs in #print axioms arrAt_out

end Cert.KernelIdeal.Hand

end
-- ==== Proof.KI.Launch.lean ====
/-
  The launch: the body obligation on every device, the ghost state dealt and the cells' invariants allocated for all
  devices at once, and the run of @main on the eight devices with every array's final contents named.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.KI.Sched
import proofs.«900946_g7700000000000947_dist_mean_ax0_shard0_i_m1536_n768_v7x_i8_f32_1_alg».proof.Proof.KI.Body
import proofs.«900946_g7700000000000947_dist_mean_ax0_shard0_i_m1536_n768_v7x_i8_f32_1_alg».proof.Proof.KI.Final

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body -/

omit [FloatOps F] [Named F] in
/-- A whole staging buffer held at given contents, as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Option (Bool × Fin 7) → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The protocol's cells: fifteen a device. -/
def protoCells : Finset (GSem nD τ sig) := Finset.univ.map ⟨kcell, kcell_injective⟩

/-- A device's own cells' duty tokens as minted: (device, which duty) — its barrier cell's seven, and the one of each of
    its send and receive cells. -/
abbrev tokOf (ck : Dev nD × (Fin 7 ⊕ (Bool × Fin 7))) : GSem nD τ sig × ℕ × Fin 7 := match ck.2 with
  | .inl d => (barCell ck.1, 0, d)
  | .inr bj => (kcell (ck.1, some bj), 0, 0)

theorem tokOf_injective : Function.Injective (tokOf : Dev nD × (Fin 7 ⊕ (Bool × Fin 7)) → GSem nD τ sig × ℕ × Fin 7) := by
  rintro ⟨c, k⟩ ⟨c', k'⟩ h
  have h1 : c = c' := by
    have := congrArg (fun x : GSem nD τ sig × ℕ × Fin 7 => x.1.1.1) h
    cases k <;> cases k' <;> exact this
  subst h1
  have hs := congrArg (fun x : GSem nD τ sig × ℕ × Fin 7 => x.1.2) h
  have hd := congrArg (fun x : GSem nD τ sig × ℕ × Fin 7 => x.2.2) h
  cases k with
  | inl d => cases k' with
    | inl d' => have : d = d' := hd
                subst this; rfl
    | inr bj' => exact absurd (csem_injective (a₁ := none) (a₂ := some bj') hs) (fun h' => by cases h')
  | inr bj => cases k' with
    | inl d' => exact absurd (csem_injective (a₁ := some bj) (a₂ := none) hs) (fun h' => by cases h')
    | inr bj' => have := csem_injective (a₁ := some bj) (a₂ := some bj') hs
                 cases this; rfl

def protoToks : Finset (GSem nD τ sig × ℕ × Fin 7) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun d : Fin 7 => dutyTok ER (barCell c) 0 d)
    ∗ (bigSep Finset.univ fun j : Fin 7 => dutyTok ER (sendCell c j) 0 0)
    ∗ (bigSep Finset.univ fun j : Fin 7 => dutyTok ER (recvCell c j) 0 0))

/-- What the launch element deals device `c` (the theorem's `G`). -/
def G (c : Dev nD) : sProp 𝕄 :=
  iprop((bigSep Finset.univ fun k : Option (Bool × Fin 7) => roundState ER (Rd m ρ) (kcell (c, k)) 0)
    ∗ (bigSep Finset.univ fun k : Option (Bool × Fin 7) => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] [Named F] in
theorem bigSep_bool (Φ : Bool → sProp 𝕄) : bigSep Finset.univ Φ = iprop(Φ false ∗ Φ true) :=
  bigSep_univ_eq_bigSepL [false, true] (by decide) (by decide) Φ

omit [FloatOps F] [Named F] in
/-- A product over a device's fifteen cells: the barrier cell's factor, the send cells', the receive cells'. -/
theorem bigSep_opt (Φ : Option (Bool × Fin 7) → sProp 𝕄) :
    bigSep Finset.univ Φ = iprop(Φ none ∗ (bigSep Finset.univ fun j : Fin 7 => Φ (some (false, j))) ∗ (bigSep Finset.univ fun j : Fin 7 => Φ (some (true, j)))) := by
  rw [bigSep_univ_equiv (Equiv.optionEquivSumPUnit.{0, 0} (Bool × Fin 7)).symm Φ, bigSep_univ_sum, bigSep_univ_of_subsingleton PUnit.unit,
    bigSep_univ_prod, bigSep_bool]
  exact Idealize.SL.BI.Entails.antisymm BI.sep_comm BI.sep_comm

omit [FloatOps F] [Named F] in
/-- The same over the cells themselves. -/
theorem bigSep_cells (c : Dev nD) (Φ : GSem nD τ sig → sProp 𝕄) :
    (bigSep Finset.univ fun k : Option (Bool × Fin 7) => Φ (kcell (c, k)))
      = iprop(Φ (barCell c) ∗ (bigSep Finset.univ fun j : Fin 7 => Φ (sendCell c j)) ∗ (bigSep Finset.univ fun j : Fin 7 => Φ (recvCell c j))) := by
  rw [bigSep_opt]; rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Option (Bool × Fin 7) => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_prod, bigSep_bool]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  unfold Pipeline.ownSems0; rw [bigSep_univ_prod, bigSep_bool]; rfl
omit [FloatOps F] [Named F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 7) => semVal (kcell (c, k)) 0 : sProp 𝕄) := by
  rw [ownSems0_eq, unscopedSems0_eq, bigSep_cells c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Bool × Fin 7) => semVal (kcell (c, k)) 0) ∗ bigSep Finset.univ fun k : Option (Bool × Fin 7) => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, for all devices: every cell's invariant under its name, and round 0 of every cell reached. -/
def records (K : Dev nD × Option (Bool × Fin 7) → ℕ) : sProp 𝕄 :=
  iprop((bigSep Finset.univ fun ck : Dev nD × Option (Bool × Fin 7) => cellInv ER (Rd m ρ) (K ck) (kcell ck))
    ∗ bigSep Finset.univ fun ck : Dev nD × Option (Bool × Fin 7) => reached ER (kcell ck) 0)

instance records_persistent (K : Dev nD × Option (Bool × Fin 7) → ℕ) : BI.Persistent (records m ρ K) := by unfold records; infer_instance

theorem inv_at (K : Dev nD × Option (Bool × Fin 7) → ℕ) (ck : Dev nD × Option (Bool × Fin 7)) :
    (bigSep Finset.univ fun ck : Dev nD × Option (Bool × Fin 7) => (cellInv ER (Rd m ρ) (K ck) (kcell ck) : sProp 𝕄)) ⊢ cellInv ER (Rd m ρ) (K ck) (kcell ck) :=
  bigSep_elim (Finset.mem_univ ck)
omit [FloatOps F] [Named F] in
theorem reached_at (ck : Dev nD × Option (Bool × Fin 7)) :
    (bigSep Finset.univ fun ck : Dev nD × Option (Bool × Fin 7) => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop((bigSep Finset.univ fun j : Fin 7 => dutyTok ER (barCell (sh j c)) 0 (neg j))
    ∗ (bigSep Finset.univ fun j : Fin 7 => dutyTok ER (recvCell (sh j c) j) 0 0)
    ∗ (bigSep Finset.univ fun j : Fin 7 => dutyTok ER (sendCell c j) 0 0))
def linear (c : Dev nD) : sProp 𝕄 :=
  iprop((atPos ER (barCell c) 0 ∅ 0 ∗ (bigSep Finset.univ fun j : Fin 7 => atPos ER (sendCell c j) 0 ∅ 0)
      ∗ (bigSep Finset.univ fun j : Fin 7 => atPos ER (recvCell c j) 0 ∅ 0)) ∗ payToks c)

theorem ghost_intro (K : Dev nD × Option (Bool × Fin 7) → ℕ) (c : Dev nD) : iprop(records m ρ K ∗ linear c) ⊢ G' m ρ c := by
  unfold records linear payToks G' ghost invs reacheds
  iintro ⟨⟨#HI, #HR⟩, ⟨HaB, HaS, HaV⟩, HtB, HtV, HtS⟩
  iexists K
  isplitr
  · isplitr; · iapply (inv_at m ρ K (c, none)); iexact HI
    isplitr; · iapply (bigSep_intro_persistent fun (j : Fin 7) _ => inv_at m ρ K (c, some (false, j))); iexact HI
    isplitr; · iapply (bigSep_intro_persistent fun (j : Fin 7) _ => inv_at m ρ K (c, some (true, j))); iexact HI
    isplitr; · iapply (bigSep_intro_persistent fun (j : Fin 7) _ => inv_at m ρ K (sh j c, none)); iexact HI
    iapply (bigSep_intro_persistent fun (j : Fin 7) _ => inv_at m ρ K (sh j c, some (true, j))); iexact HI
  isplitr
  · isplitr; · iapply (bigSep_intro_persistent fun (j : Fin 7) _ => reached_at (F := F) (sh j c, none)); iexact HR
    isplitr; · iapply (bigSep_intro_persistent fun (j : Fin 7) _ => reached_at (F := F) (sh j c, some (true, j))); iexact HR
    iapply (bigSep_intro_persistent fun (j : Fin 7) _ => reached_at (F := F) (c, some (false, j))); iexact HR
  isplitl [HaB]; · iexact HaB
  isplitl [HaS]; · iexact HaS
  isplitl [HaV]; · iexact HaV
  isplitl [HtB]; · iexact HtB
  isplitl [HtV]; · iexact HtV
  iexact HtS

/-- The dealing of a barrier cell's tokens: duty `d` of device `c`'s cell is the duty `neg j` of the cell of the peer
    `j` of the device that pays it. -/
def dealB : Dev nD × Fin 7 ≃ Dev nD × Fin 7 where
  toFun cj := (sh cj.2 cj.1, neg cj.2)
  invFun cj := (sh cj.2 cj.1, neg cj.2)
  left_inv := fun ⟨c, j⟩ => Prod.ext (sh_neg_sh j c) (neg_neg j)
  right_inv := fun ⟨c, j⟩ => Prod.ext (sh_neg_sh j c) (neg_neg j)
/-- The dealing of the receive cells' tokens: cell `j` of device `c` is the cell `j` of the peer `j` of its payer. -/
def dealR : Dev nD × Fin 7 ≃ Dev nD × Fin 7 where
  toFun cj := (sh cj.2 cj.1, cj.2)
  invFun cj := (sh (neg cj.2) cj.1, cj.2)
  left_inv := fun ⟨c, j⟩ => Prod.ext (sh_neg_sh j c) rfl
  right_inv := fun ⟨c, j⟩ => Prod.ext (sh_sh_neg j c) rfl

omit [FloatOps F] [Named F] in
theorem around_bar (Φ : Dev nD → Fin 7 → sProp 𝕄) :
    (bigSep Finset.univ fun c : Dev nD => bigSep Finset.univ fun d : Fin 7 => Φ c d)
      = bigSep Finset.univ fun c : Dev nD => bigSep Finset.univ fun j : Fin 7 => Φ (sh j c) (neg j) :=
  (bigSep_univ_prod (fun cd : Dev nD × Fin 7 => Φ cd.1 cd.2)).symm.trans
    ((bigSep_univ_equiv dealB (fun cd : Dev nD × Fin 7 => Φ cd.1 cd.2)).trans (bigSep_univ_prod _))
omit [FloatOps F] [Named F] in
theorem around_recv (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (sh j c) j :=
  (bigSep_univ_prod (fun cd : Dev nD × Fin 7 => Φ cd.1 cd.2)).symm.trans
    ((bigSep_univ_equiv dealR (fun cd : Dev nD × Fin 7 => Φ cd.1 cd.2)).trans (bigSep_univ_prod _))

omit [FloatOps F] [Named F] in
/-- The tokens dealt round the mesh: a barrier cell's token of duty `d` to the device that pays it, a receive cell's
    token to the device whose copy lands on it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around_bar (fun c d => (dutyTok ER (barCell c) 0 d : sProp 𝕄)),
    around_recv (fun c j => (dutyTok ER (recvCell c j) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Bool × Fin 7) => iprop(∃ κ : ℕ, cellInv ER (Rd m ρ) κ (kcell ck))),
    bigSep_congr (s := Finset.univ) (fun (c : Dev nD) _ => bigSep_sep' Finset.univ (fun k : Option (Bool × Fin 7) => (atPos ER (kcell (c, k)) 0 ∅ 0 : sProp 𝕄)) (fun k => reached ER (kcell (c, k)) 0)),
    bigSep_sep', ← bigSep_univ_prod (fun ck : Dev nD × Option (Bool × Fin 7) => (reached ER (kcell ck) 0 : sProp 𝕄))]
  iintro ⟨HI, ⟨Hat, #HR⟩, Htok⟩
  ihave HK := (BI.bigSep_exists_pi Finset.univ (fun (ck : Dev nD × Option (Bool × Fin 7)) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Option (Bool × Fin 7) => (atPos ER (kcell (c, k)) 0 ∅ 0 : sProp 𝕄)) payToks).symm).trans
      (bigSep_mono fun c _ => show _ ⊢ linear c from Entails.of_eq (by unfold linear; rw [bigSep_cells c (fun g => atPos ER g 0 ∅ 0)])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  iintro ⟨Hr, HzS, HzV⟩
  isplitr; · iempintro
  isplitl [HzS HzV]
  · isplitl [HzS] <;> iassumption
  iexists (gath m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's result array at the computed contents and
    `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = m ((c : Thread nD τ).loc main_arg0) := by
  exact arrAt_x m ρ c

/-- The result array after the run holds the device's result. -/
theorem finalA_out (c : Dev nD) : finalA m ρ c (1 : Fin 2) = outAt m ρ c := by
  exact arrAt_out m ρ c

/-- info: 'Cert.KernelIdeal.Hand.run_main' depends on axioms: [propext, Classical.choice, Quot.sound] -/
#guard_msgs in #print axioms run_main

end Cert.KernelIdeal.Hand

end
-- ==== Proof.KValue.lean ====
/-
  What the kernel's result holds, over the extended reals, index by index; and that it is the reference's mean.

  Device `c`'s result at column `q` is the sum over the eight rows of its scratch — row `i` the column sums of the device
  `i` places before it — times the named constant `1/12288`. The eight devices before `c` are all the devices, and device
  `d`'s block is rows `1536 d … 1536 d + 1535` of the whole array, so the double sum is the sum of the whole column; and
  dividing by `12288` is multiplying by `1/12288` on every extended real. Addition on the extended reals is commutative
  and associative, so no finiteness is used.
-/
import proofs.«900946_g7700000000000947_dist_mean_ax0_shard0_i_m1536_n768_v7x_i8_f32_1_alg».proof.Proof.KI.Defs
import proofs.«900946_g7700000000000947_dist_mean_ax0_shard0_i_m1536_n768_v7x_i8_f32_1_alg».proof.Proof.Gen.ReferenceIdeal.Read
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Layout

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

abbrev S12288x768' : Shape := ⟨2, ![12288, 768]⟩

/-! ## Constants -/

/-- The named reciprocal denotes the rational 1/12288 at the extended reals, by the certificate's table. -/
theorem inv_total : Named.named (F := Ideal) Cert.KernelIdeal.κ "inv_total" (φ := .f32) 0x38AAAAAB#32 = ((1 / 12288 : ℝ) : EReal) :=
  IdealRules.named_const.ideal_named_scalar _ _ _ _ rfl

/-- `12288.0`, the reference's divisor, denotes the real `12288`. -/
theorem ofBits_12288 : Ideal.ofBits .f32 0x46400000#32 = ((12288 : ℝ) : EReal) := by
  simp [Ideal.ofBits, Ideal.ieee, -EReal.coe_mul]; norm_num

/-! ## Sums -/

/-- A sum over the eight devices before `c` is a sum over all devices. -/
theorem sum_back (c : Dev nD) (g : Dev nD → EReal) : ∑ i : Fin 8, g (back i c) = ∑ d : Fin 8, g d :=
  Fintype.sum_bijective (fun i : Fin 8 => back i c)
    ((Finite.injective_iff_bijective).mp (by revert c; decide)) _ _ (fun _ => rfl)

/-- The rows of the whole array are the rows of the eight blocks, one block after the other. -/
theorem sum_blocks (f : Fin 12288 → EReal) :
    ∑ d : Fin 8, ∑ r : Fin 1536, f ⟨d.val * 1536 + r.val, by have := d.isLt; have := r.isLt; omega⟩ = ∑ k : Fin 12288, f k := by
  rw [← Fintype.sum_prod_type' (f := fun (d : Fin 8) (r : Fin 1536) => f ⟨d.val * 1536 + r.val, by have := d.isLt; have := r.isLt; omega⟩)]
  refine Fintype.sum_equiv ((finProdFinEquiv (m := 8) (n := 1536)).trans (finCongr (by norm_num))) _ _ (fun p => congrArg f (Fin.ext ?_))
  show p.1.val * 1536 + p.2.val = p.2.val + 1536 * p.1.val
  omega

/-! ## A sum over the rows of a two-axis vector -/

/-- The kernel's sum over axis 0 of an `a × b` vector, read at column `q`: the sum of that column. -/
theorem red0_apply {a b : ℕ} (src : FVec Ideal ⟨2, ![a, b]⟩ .f32) (h : (⟨2, ![a, b]⟩ : Shape).Reduces [0] ⟨1, ![b]⟩) (hφ : FKind.Formats FTy.f32)
    (hacc : (0x00000000#32 : BitVec 32) = 0x00000000#32) (q : Fin b) :
    multiReduction .add [0] ⟨1, ![b]⟩ src 0x00000000#32 h hφ hacc (ix1 q) = ∑ r : Fin a, (show EReal from src (ix2 r q)) :=
  (Ideal.multiReduction_add_single src 0x00000000#32 h hφ hacc (ix1 q)).trans
    (Finset.sum_congr rfl fun r _ => congrArg src (funext fun x => Fin.ext (by match x with | ⟨0, _⟩ => rfl | ⟨1, _⟩ => rfl)))

/-! ## The kernel's result at a column -/

variable (m : (ℓ : Loc nD τ sig) → Buf (Elt Ideal) ℓ) (ρ : Dev nD → PrngReg)

/-- A device's block of `x` as an array of extended reals. -/
abbrev xarr (c : Dev nD) : S1536x768.Idx → EReal := xstg (F := Ideal) m ρ c

/-- The column sums of a device's block, at column `q`. -/
theorem colsum_apply (c : Dev nD) (q : Fin 768) :
    colsum (F := Ideal) m ρ c (ix3 (0 : Fin 1) (0 : Fin 1) q) = ∑ r : Fin 1536, xarr m ρ c (ix2 r q) := by
  unfold colsum k0_pay2 k0_pay1
  dsimp only
  rw [shapeCast_ab_1ab_apply, shapeCast_a_1a_apply]
  refine (red0_apply _ _ _ _ q).trans ?_
  rw [shapeCast_self]

/-- Row `i` of what the scratch ends holding, at column `q`. -/
theorem gath_apply (c : Dev nD) (i : Fin 8) (q : Fin 768) :
    gath (F := Ideal) m ρ c (ix3 i (0 : Fin 1) q) = colsum (F := Ideal) m ρ (back i c) (ix3 (0 : Fin 1) (0 : Fin 1) q) := rfl

/-- The result at column `q`: the eight rows summed, times the named constant. -/
theorem outAt_apply (c : Dev nD) (q : Fin 768) :
    outAt (F := Ideal) m ρ c (ix2 (0 : Fin 1) q)
      = (∑ i : Fin 8, ∑ r : Fin 1536, xarr m ρ (back i c) (ix2 r q)) * ((1 / 12288 : ℝ) : EReal) := by
  unfold outAt k0_pay3
  dsimp only
  rw [mulf_apply, broadcast_apply, inv_total, shapeCast_a_1a_apply]
  refine congrArg (· * _) ((red0_apply _ _ _ _ q).trans (Finset.sum_congr rfl fun i _ => ?_))
  rw [← colsum_apply, ← gath_apply]
  refine shapeCast_apply _ _ _ _ ?_
  rw [Shape.rowMajor_val_three, Shape.rowMajor_val_two]
  show (i.val * 1 + 0) * 768 + q.val = i.val * 768 + q.val
  omega

/-! ## The blocks of the whole array, and the reference -/

/-- The reference's mean at column `q` of a whole array `X`: the column's sum over 12288. -/
theorem ref_apply (X : (⟨S12288x768', .f32⟩ : BufTy).Contents (Elt Ideal)) (q : Fin 768) :
    Cert.ReferenceIdeal.Read.val_main_v3 (F := Ideal) X (ix2 (0 : Fin 1) q)
      = (∑ k : Fin 12288, (show EReal from X (ix2 k q))) * ((1 / 12288 : ℝ) : EReal) := by
  rw [Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  rw [Ideal.hostDivf_def, Ideal.ofBits_def, Ideal.ofBits_def, ofBits_12288, Ideal.ofBits_zero_f32, zero_add,
    Ideal.div_coe (by norm_num : (12288 : ℝ) ≠ 0)]
  refine congrArg (· * _) (Finset.sum_congr rfl fun k _ => congrArg X ?_)
  funext a; match a with | ⟨0, _⟩ => rfl | ⟨1, _⟩ => rfl

/-- A device's staging buffer holds its whole block of `x`. -/
theorem xstg_eq (c : Dev nD) : xstg (F := Ideal) m ρ c = m ((c : Thread nD τ).loc main_arg0) := by
  unfold xstg
  exact Memref.read_access_unit_zero (Elt Ideal) main_arg0 (funext fun a => by fin_cases a <;> rfl) _ _

/-- Every device's result is the reference's mean of the whole array, when each device's block of `x` is its block of
    the whole array. -/
theorem result_eq (X : (⟨S12288x768', .f32⟩ : BufTy).Contents (Elt Ideal))
    (hagree : ∀ c : Dev nD, m ((c : Thread nD τ).loc main_arg0) = Layout.block ⟨2, ![1536, 768]⟩ ⟨2, ![12288, 768]⟩ 0 8 c X)
    (c : Dev nD) : outAt (F := Ideal) m ρ c = Cert.ReferenceIdeal.Read.val_main_v3 (F := Ideal) X := by
  funext j
  obtain ⟨u, q, rfl⟩ : ∃ (u : Fin 1) (q : Fin 768), j = ix2 u q := ⟨j 0, j 1, eq_ix2 j⟩
  obtain rfl : u = 0 := Subsingleton.elim _ _
  rw [outAt_apply, ref_apply]
  refine congrArg (· * _) ?_
  rw [sum_back c (fun d => ∑ r : Fin 1536, xarr m ρ d (ix2 r q)), ← sum_blocks (fun k => (show EReal from X (ix2 k q)))]
  refine Finset.sum_congr rfl fun d _ => Finset.sum_congr rfl fun r _ => ?_
  show xstg (F := Ideal) m ρ d (ix2 r q) = _
  rw [xstg_eq, hagree d, Layout.block_apply]
  refine congrArg X ?_
  funext a; match a with | ⟨0, _⟩ => rfl | ⟨1, _⟩ => rfl

end Cert.KernelIdeal.HandValue

end
-- ==== Proof.lean ====
/-
  The five claims.

  The kernel on eight devices and its idealization: each device's body is proved once, generic in the float instance, under
  the rounds discipline for its fifteen semaphore cells (a barrier cell, seven send cells, seven receive cells), and the
  launch theorem turns the eight bodies into the run of @main with every array's final contents named; the frames are that
  run with the values dropped. The reference's frame is its run with the result dropped. The one rewrite of the
  idealization is the named constant `inv_total = 1/12288`. Over the extended reals every device's result is the mean of
  the whole array's columns, which is what the reference computes.
-/
import proofs.«900946_g7700000000000947_dist_mean_ax0_shard0_i_m1536_n768_v7x_i8_f32_1_alg».proof.Defs
import proofs.«900946_g7700000000000947_dist_mean_ax0_shard0_i_m1536_n768_v7x_i8_f32_1_alg».proof.Proof.Gen.Kernel
import proofs.«900946_g7700000000000947_dist_mean_ax0_shard0_i_m1536_n768_v7x_i8_f32_1_alg».proof.Proof.Gen.KernelIdeal
import proofs.«900946_g7700000000000947_dist_mean_ax0_shard0_i_m1536_n768_v7x_i8_f32_1_alg».proof.Proof.Gen.ReferenceIdeal
import proofs.«900946_g7700000000000947_dist_mean_ax0_shard0_i_m1536_n768_v7x_i8_f32_1_alg».proof.Proof.Gen.Pre_finite_inputs_Kernel
import proofs.«900946_g7700000000000947_dist_mean_ax0_shard0_i_m1536_n768_v7x_i8_f32_1_alg».proof.Proof.Gen.Pre_finite_inputs_ReferenceIdeal
import proofs.«900946_g7700000000000947_dist_mean_ax0_shard0_i_m1536_n768_v7x_i8_f32_1_alg».proof.Proof.Gen.ReferenceIdeal.Run
import proofs.«900946_g7700000000000947_dist_mean_ax0_shard0_i_m1536_n768_v7x_i8_f32_1_alg».proof.Proof.Gen.ReferenceIdeal.Read
import proofs.«900946_g7700000000000947_dist_mean_ax0_shard0_i_m1536_n768_v7x_i8_f32_1_alg».proof.Proof.K.Launch
import proofs.«900946_g7700000000000947_dist_mean_ax0_shard0_i_m1536_n768_v7x_i8_f32_1_alg».proof.Proof.KI.Launch
import proofs.«900946_g7700000000000947_dist_mean_ax0_shard0_i_m1536_n768_v7x_i8_f32_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs on the eight devices and leaves `x` as it was. -/
theorem frame_p : Cert.frame_Kernel := fun m g _ =>
  (θ_run Cert.Kernel.defs _ _).mono (fun _ h c => (h c 0).trans (Cert.Kernel.Hand.finalA_x m g c))
    (Cert.Kernel.Hand.run_main (F := Bits) m g)

/-- So does its idealization. -/
theorem frame_pi : Cert.frame_KernelIdeal := fun m g _ =>
  (θ_run Cert.KernelIdeal.defs _ _).mono (fun _ h c => (h c 0).trans (Cert.KernelIdeal.Hand.finalA_x m g c))
    (Cert.KernelIdeal.Hand.run_main (F := Ideal) m g)

/-- The reference runs and leaves `x` as it was. -/
theorem frame_ri : Cert.frame_ReferenceIdeal := fun m g _ =>
  (θ_run Cert.ReferenceIdeal.defs _ _).mono (fun _ h c => (h c).2) (Cert.ReferenceIdeal.Value.run (F := Ideal) m g)

/-- The ledger's one entry: the certificate's table gives `"inv_total"` the value `1/12288`. -/
theorem preserves : Cert.preserves_Kernel_KernelIdeal :=
  IdealRules.named_const.statement Cert.KernelIdeal.κ "inv_total" .f32 0x38AAAAAB#32 ((1 / 12288 : ℝ) : EReal) rfl

/-- Over the extended reals every device's result ends at the reference's mean of the whole array. -/
theorem algebraic : Cert.algebraic_KernelIdeal_ReferenceIdeal := by
  intro m g m' g' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c 1).trans ((Cert.KernelIdeal.Hand.finalA_out m g c).trans (Cert.KernelIdeal.HandValue.result_eq m g _ hagree c)),
        (h c 0).trans (Cert.KernelIdeal.Hand.finalA_x m g c)⟩)
      (Cert.KernelIdeal.Hand.run_main (F := Ideal) m g)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, preserves, algebraic⟩

end Cert.Proof

end
